-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x100000 : Shape := ⟨2, ![32, 100000]⟩
abbrev S10000x10 : Shape := ⟨2, ![10000, 10]⟩
abbrev S10x16 : Shape := ⟨2, ![10, 16]⟩
abbrev S16 : Shape := ⟨1, ![16]⟩
abbrev S_ : Shape := ⟨0, ![]⟩

class Facts : Prop where
  bcast_S_S10000x10 : S_.BroadcastsInDim S10000x10 (![] : Fin 0 → Fin S10000x10.rank)
  reducesTo_S10000x10_S_d0_1 : S10000x10.ReducesTo [0, 1] S_
  h_S_ : 0 < S_.numel
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S32x100000 : S_.BroadcastsInDim S32x100000 (![] : Fin 0 → Fin S32x100000.rank)
  reducesTo_S32x100000_S_d0_1 : S32x100000.ReducesTo [0, 1] S_

variable [Facts]

def fn_part1 {F : FTy → Type} [FloatOps F] (main_arg0 : IVec S32x100000 32) (main_v13 : IVec S_ 1) (main_v15 : IVec S32x100000 1) (main_c_5 : IVec S_ 32) : IVec S_ 1 :=
  let main_v16 : IVec S32x100000 32 := broadcastInDim S32x100000 ![] bcast_S_S32x100000 main_c_5
  let main_v17 : IVec S32x100000 1 := cmpi .slt main_arg0 main_v16
  let main_v18 : IVec S32x100000 1 := andi main_v15 main_v17
  let main_c_6 : IVec S_ 1 := constantI S_ 1 1#1
  let main_v19 : IVec S_ 1 := (fun x v => Host.reduce IntOp.andi x v reducesTo_S32x100000_S_d0_1 h_S_) main_v18 main_c_6
  let main_v20 : IVec S_ 1 := andi main_v13 main_v19
  main_v20

def fn {F : FTy → Type} [FloatOps F] (main_arg0 : IVec S32x100000 32) (main_arg1 : FVec F S10000x10 .f32) (main_arg2 : FVec F S10x16 .f32) (main_arg3 : FVec F S16 .f32) : IVec S_ 1 :=
  let main_v0 : FVec F S10000x10 .f32 := Host.absf main_arg1
  let main_cst : FVec F S_ .f32 := constant S_ .f32 0x7F800000#32
  let main_v1 : FVec F S10000x10 .f32 := broadcastInDim S10000x10 ![] bcast_S_S10000x10 main_cst
  let main_v2 : IVec S10000x10 1 := cmpf .olt main_v0 main_v1
  let main_c : IVec S_ 1 := constantI S_ 1 1#1
  let main_v3 : IVec S_ 1 := (fun x v => Host.reduce IntOp.andi x v reducesTo_S10000x10_S_d0_1 h_S_) main_v2 main_c
  let main_v4 : FVec F S10x16 .f32 := Host.absf main_arg2
  let main_cst_0 : FVec F S_ .f32 := constant S_ .f32 0x7F800000#32
  let main_v5 : FVec F S10x16 .f32 := broadcastInDim S10x16 ![] bcast_S_S10x16 main_cst_0
  let main_v6 : IVec S10x16 1 := cmpf .olt main_v4 main_v5
  let main_c_1 : IVec S_ 1 := constantI S_ 1 1#1
  let main_v7 : IVec S_ 1 := (fun x v => Host.reduce IntOp.andi x v reducesTo_S10x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_c_4 : IVec S_ 32 := constantI S_ 32 0#32
  let main_v14 : IVec S32x100000 32 := broadcastInDim S32x100000 ![] bcast_S_S32x100000 main_c_4
  let main_v15 : IVec S32x100000 1 := cmpi .sge main_arg0 main_v14
  let main_c_5 : IVec S_ 32 := constantI S_ 32 10000#32
  fn_part1 (F := F) main_arg0 main_v13 main_v15 main_c_5
-- ==== Kernel.lean ====
abbrev S32x100000 : Shape := ⟨2, ![32, 100000]⟩
abbrev S10000x10 : Shape := ⟨2, ![10000, 10]⟩
abbrev S10x16 : Shape := ⟨2, ![10, 16]⟩
abbrev S16 : Shape := ⟨1, ![16]⟩
abbrev S10000x16 : Shape := ⟨2, ![10000, 16]⟩
abbrev S_ : Shape := ⟨0, ![]⟩
abbrev S3200000 : Shape := ⟨1, ![3200000]⟩
abbrev S3200000x16 : Shape := ⟨2, ![3200000, 16]⟩
abbrev S5120 : Shape := ⟨1, ![5120]⟩
abbrev S5120x16 : Shape := ⟨2, ![5120, 16]⟩
abbrev S5120x1 : Shape := ⟨2, ![5120, 1]⟩
abbrev S5120x400 : Shape := ⟨2, ![5120, 400]⟩
abbrev S400x16 : Shape := ⟨2, ![400, 16]⟩
abbrev S1x16 : Shape := ⟨2, ![1, 16]⟩
abbrev S32x100000x16 : Shape := ⟨3, ![32, 100000, 16]⟩

abbrev nBuf : Space → Nat
  | .hbm => 16
  | .vmem => 10
  | .smem => 0
  | _ => 0

abbrev bufTy : (tb : Table) → Fin (tcTables nBuf tb) → BufTy
  | .hbm, ⟨0, _⟩ => ⟨S32x100000, .i32⟩
  | .hbm, ⟨1, _⟩ => ⟨S10000x10, .f32⟩
  | .hbm, ⟨2, _⟩ => ⟨S10x16, .f32⟩
  | .hbm, ⟨3, _⟩ => ⟨S16, .f32⟩
  | .hbm, ⟨4, _⟩ => ⟨S10000x16, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x100000, .i32⟩
  | .hbm, ⟨9, _⟩ => ⟨S32x100000, .i32⟩
  | .hbm, ⟨10, _⟩ => ⟨S_, .i32⟩
  | .hbm, ⟨11, _⟩ => ⟨S32x100000, .i32⟩
  | .hbm, ⟨12, _⟩ => ⟨S32x100000, .i32⟩
  | .hbm, ⟨13, _⟩ => ⟨S3200000, .i32⟩
  | .hbm, ⟨14, _⟩ => ⟨S3200000x16, .f32⟩
  | .hbm, ⟨15, _⟩ => ⟨S32x100000x16, .f32⟩
  | .local _ .vmem, ⟨0, _⟩ => ⟨S10000x10, .f32⟩
  | .local _ .vmem, ⟨1, _⟩ => ⟨S10x16, .f32⟩
  | .local _ .vmem, ⟨2, _⟩ => ⟨S10000x16, .f32⟩
  | .local _ .vmem, ⟨3, _⟩ => ⟨S5120, .i32⟩
  | .local _ .vmem, ⟨4, _⟩ => ⟨S5120, .i32⟩
  | .local _ .vmem, ⟨5, _⟩ => ⟨S10000x16, .f32⟩
  | .local _ .vmem, ⟨6, _⟩ => ⟨S16, .f32⟩
  | .local _ .vmem, ⟨7, _⟩ => ⟨S5120x16, .f32⟩
  | .local _ .vmem, ⟨8, _⟩ => ⟨S5120x16, .f32⟩
  | .local _ .vmem, ⟨9, _⟩ => ⟨S5120x16, .f32⟩
  | _, _ => ⟨S32x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![625], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5120x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x10_S10000x10_0_0 : ∀ a, (![0, 0] : Fin 2 → Nat) a + S10000x10.size a ≤ S10000x10.size a
  h_S10000x10 : 0 < S10000x10.numel
  inb_S10x16_S10x16_0_0 : ∀ a, (![0, 0] : Fin 2 → Nat) a + S10x16.size a ≤ S10x16.size a
  h_S10x16 : 0 < S10x16.numel
  inb_S10000x16_S10000x16_0_0 : ∀ a, (![0, 0] : Fin 2 → Nat) a + S10000x16.size a ≤ S10000x16.size a
  h_S10000x16 : 0 < S10000x16.numel
  bcast_S_S32x100000 : S_.BroadcastsInDim S32x100000 (![] : Fin 0 → Fin S32x100000.rank)
  shapeCasts_S32x100000_S3200000 : S32x100000.ShapeCasts S3200000
  inb_S5120x16_S5120x16_0_0 : ∀ a, (![0, 0] : Fin 2 → Nat) a + S5120x16.size a ≤ S5120x16.size a
  h_S5120x16 : 0 < S5120x16.numel
  shapeCasts_S5120x16_S5120x16 : S5120x16.ShapeCasts S5120x16
  inb_S5120_S5120_0 : ∀ a, (![0] : Fin 1 → Nat) a + S5120.size a ≤ S5120.size a
  h_S5120 : 0 < S5120.numel
  shapeCasts_S5120_S5120 : S5120.ShapeCasts S5120
  shapeCasts_S5120_S5120x1 : S5120.ShapeCasts S5120x1
  iota_S5120x400_d1_w32 : S5120x400.Iotas .tc 32 [1]
  broadcasts_S5120x1_S5120x400 : S5120x1.Broadcasts S5120x400
  natLt_1_32 : 1 < 32
  bitsLt_bf16_f32 : FTy.bits .bf16 < FTy.bits .f32
  inb_S10000x16_S400x16_0_0 : ∀ a, (![0, 0] : Fin 2 → Nat) a + S400x16.size a ≤ S10000x16.size a
  h_S400x16 : 0 < S400x16.numel
  shapeCasts_S400x16_S400x16 : S400x16.ShapeCasts S400x16
  inb_S10000x16_S400x16_400_0 : ∀ a, (![400, 0] : Fin 2 → Nat) a + S400x16.size a ≤ S10000x16.size a
  inb_S10000x16_S400x16_800_0 : ∀ a, (![800, 0] : Fin 2 → Nat) a + S400x16.size a ≤ S10000x16.size a
  inb_S10000x16_S400x16_1200_0 : ∀ a, (![1200, 0] : Fin 2 → Nat) a + S400x16.size a ≤ S10000x16.size a
  inb_S10000x16_S400x16_1600_0 : ∀ a, (![1600, 0] : Fin 2 → Nat) a + S400x16.size a ≤ S10000x16.size a
  inb_S10000x16_S400x16_2000_0 : ∀ a, (![2000, 0] : Fin 2 → Nat) a + S400x16.size a ≤ S10000x16.size a
  inb_S10000x16_S400x16_2400_0 : ∀ a, (![2400, 0] : Fin 2 → Nat) a + S400x16.size a ≤ S10000x16.size a
  inb_S10000x16_S400x16_2800_0 : ∀ a, (![2800, 0] : Fin 2 → Nat) a + S400x16.size a ≤ S10000x16.size a
  inb_S10000x16_S400x16_3200_0 : ∀ a, (![3200, 0] : Fin 2 → Nat) a + S400x16.size a ≤ S10000x16.size a
  inb_S10000x16_S400x16_3600_0 : ∀ a, (![3600, 0] : Fin 2 → Nat) a + S400x16.size a ≤ S10000x16.size a
  inb_S10000x16_S400x16_4000_0 : ∀ a, (![4000, 0] : Fin 2 → Nat) a + S400x16.size a ≤ S10000x16.size a
  inb_S10000x16_S400x16_4400_0 : ∀ a, (![4400, 0] : Fin 2 → Nat) a + S400x16.size a ≤ S10000x16.size a
  inb_S10000x16_S400x16_4800_0 : ∀ a, (![4800, 0] : Fin 2 → Nat) a + S400x16.size a ≤ S10000x16.size a
  inb_S10000x16_S400x16_5200_0 : ∀ a, (![5200, 0] : Fin 2 → Nat) a + S400x16.size a ≤ S10000x16.size a
  inb_S10000x16_S400x16_5600_0 : ∀ a, (![5600, 0] : Fin 2 → Nat) a + S400x16.size a ≤ S10000x16.size a
  inb_S10000x16_S400x16_6000_0 : ∀ a, (![6000, 0] : Fin 2 → Nat) a + S400x16.size a ≤ S10000x16.size a
  inb_S10000x16_S400x16_6400_0 : ∀ a, (![6400, 0] : Fin 2 → Nat) a + S400x16.size a ≤ S10000x16.size a
  inb_S10000x16_S400x16_6800_0 : ∀ a, (![6800, 0] : Fin 2 → Nat) a + S400x16.size a ≤ S10000x16.size a
  inb_S10000x16_S400x16_7200_0 : ∀ a, (![7200, 0] : Fin 2 → Nat) a + S400x16.size a ≤ S10000x16.size a
  inb_S10000x16_S400x16_7600_0 : ∀ a, (![7600, 0] : Fin 2 → Nat) a + S400x16.size a ≤ S10000x16.size a
  inb_S10000x16_S400x16_8000_0 : ∀ a, (![8000, 0] : Fin 2 → Nat) a + S400x16.size a ≤ S10000x16.size a
  inb_S10000x16_S400x16_8400_0 : ∀ a, (![8400, 0] : Fin 2 → Nat) a + S400x16.size a ≤ S10000x16.size a
  inb_S10000x16_S400x16_8800_0 : ∀ a, (![8800, 0] : Fin 2 → Nat) a + S400x16.size a ≤ S10000x16.size a
  inb_S10000x16_S400x16_9200_0 : ∀ a, (![9200, 0] : Fin 2 → Nat) a + S400x16.size a ≤ S10000x16.size a
  inb_S10000x16_S400x16_9600_0 : ∀ a, (![9600, 0] : Fin 2 → Nat) a + S400x16.size a ≤ S10000x16.size a
  inb_S16_S16_0 : ∀ a, (![0] : Fin 1 → Nat) a + S16.size a ≤ S16.size a
  h_S16 : 0 < S16.numel
  shapeCasts_S16_S1x16 : S16.ShapeCasts S1x16
  broadcasts_S1x16_S5120x16 : S1x16.Broadcasts S5120x16
  shapeCasts_S3200000x16_S32x100000x16 : S3200000x16.ShapeCasts S32x100000x16
  dot_S10000x10_S10x16_S10000x16_1_0_0_1_n_n_wf : DotDims.WF S10000x10 S10x16 S10000x16 [1] [0] [0] [1] [] []
  dot_S5120x400_S400x16_S5120x16_1_0_0_1_n_n_wf : DotDims.WF S5120x400 S400x16 S5120x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S10000x10.size a
  hwx0_0 : ∀ i : grid0.Coords, EltTy.bits .f32 = 32 ∨ (Rect.block (s := S10000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S10000x16.size a
  hwx0_2 : ∀ i : grid0.Coords, EltTy.bits .f32 = 32 ∨ (Rect.block (s := S10000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120.size a ≤ S3200000.size a
  hwx1_0 : ∀ i : grid1.Coords, EltTy.bits .i32 = 32 ∨ (Rect.block (s := S3200000) S5120.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5120x16.size a ≤ S3200000x16.size a
  hwx1_3 : ∀ i : grid1.Coords, EltTy.bits .f32 = 32 ∨ (Rect.block (s := S3200000x16) S5120x16.size (cc1_transform_3 i) (hinb1_3 i)).WholeWords (EltTy.packing .f32)

variable [Facts₀]

def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def dot_S5120x400_S400x16_S5120x16_1_0_0_1_n_n : DotDims S5120x400 S400x16 S5120x16 where
  lhsContracting := [1]
  rhsContracting := [0]
  lhsNonContracting := [0]
  rhsNonContracting := [1]
  lhsBatch := []
  rhsBatch := []
  wf := dot_S5120x400_S400x16_S5120x16_1_0_0_1_n_n_wf

abbrev win0_0 : Pipeline.Window sig grid0 :=
  Pipeline.Window.ofSpec (Memref.whole main_arg1) S10000x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5120x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x100000 : Shape := ⟨2, ![32, 100000]⟩
abbrev S10000x10 : Shape := ⟨2, ![10000, 10]⟩
abbrev S10x16 : Shape := ⟨2, ![10, 16]⟩
abbrev S16 : Shape := ⟨1, ![16]⟩
abbrev S10000x16 : Shape := ⟨2, ![10000, 16]⟩
abbrev S_ : Shape := ⟨0, ![]⟩
abbrev S32x100000x1 : Shape := ⟨3, ![32, 100000, 1]⟩
abbrev S1 : Shape := ⟨1, ![1]⟩
abbrev S1x1x1 : Shape := ⟨3, ![1, 1, 1]⟩
abbrev S32x100000x16 : Shape := ⟨3, ![32, 100000, 16]⟩
abbrev S1x1x16 : Shape := ⟨3, ![1, 1, 16]⟩

abbrev nBuf : Space → Nat
  | .hbm => 31
  | .vmem => 0
  | .smem => 0
  | _ => 0

abbrev bufTy : (tb : Table) → Fin (tcTables nBuf tb) → BufTy
  | .hbm, ⟨0, _⟩ => ⟨S32x100000, .i32⟩
  | .hbm, ⟨1, _⟩ => ⟨S10000x10, .f32⟩
  | .hbm, ⟨2, _⟩ => ⟨S10x16, .f32⟩
  | .hbm, ⟨3, _⟩ => ⟨S16, .f32⟩
  | .hbm, ⟨4, _⟩ => ⟨S10000x16, .f32⟩
  | .hbm, ⟨5, _⟩ => ⟨S_, .i32⟩
  | .hbm, ⟨6, _⟩ => ⟨S32x100000, .i32⟩
  | .hbm, ⟨7, _⟩ => ⟨S32x100000, .i1⟩
  | .hbm, ⟨8, _⟩ => ⟨S_, .i32⟩
  | .hbm, ⟨9, _⟩ => ⟨S32x100000, .i32⟩
  | .hbm, ⟨10, _⟩ => ⟨S32x100000, .i32⟩
  | .hbm, ⟨11, _⟩ => ⟨S32x100000, .i32⟩
  | .hbm, ⟨12, _⟩ => ⟨S32x100000x1, .i32⟩
  | .hbm, ⟨13, _⟩ => ⟨S1, .i32⟩
  | .hbm, ⟨14, _⟩ => ⟨S_, .i32⟩
  | .hbm, ⟨15, _⟩ => ⟨S32x100000x1, .i32⟩
  | .hbm, ⟨16, _⟩ => ⟨S32x100000x1, .i1⟩
  | .hbm, ⟨17, _⟩ => ⟨S1x1x1, .i32⟩
  | .hbm, ⟨18, _⟩ => ⟨S32x100000x1, .i32⟩
  | .hbm, ⟨19, _⟩ => ⟨S32x100000x1, .i1⟩
  | .hbm, ⟨20, _⟩ => ⟨S32x100000x1, .i1⟩
  | .hbm, ⟨21, _⟩ => ⟨S_, .i1⟩
  | .hbm, ⟨22, _⟩ => ⟨S32x100000, .i1⟩
  | .hbm, ⟨23, _⟩ => ⟨S32x100000x16, .f32⟩
  | .hbm, ⟨24, _⟩ => ⟨S32x100000x16, .i1⟩
  | .hbm, ⟨25, _⟩ => ⟨S_, .f32⟩
  | .hbm, ⟨26, _⟩ => ⟨S32x100000x16, .f32⟩
  | .hbm, ⟨27, _⟩ => ⟨S32x100000x16, .f32⟩
  | .hbm, ⟨28, _⟩ => ⟨S1x1x16, .f32⟩
  | .hbm, ⟨29, _⟩ => ⟨S32x100000x16, .f32⟩
  | .hbm, ⟨30, _⟩ => ⟨S32x100000x16, .f32⟩
  | _, _ => ⟨S32x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S32x100000 : S_.BroadcastsInDim S32x100000 (![] : Fin 0 → Fin S32x100000.rank)
  bcast_S32x100000_S32x100000x1_0_1 : S32x100000.BroadcastsInDim S32x100000x1 (![0, 1] : Fin 2 → Fin S32x100000x1.rank)
  bcast_S_S32x100000x1 : S_.BroadcastsInDim S32x100000x1 (![] : Fin 0 → Fin S32x100000x1.rank)
  bcast_S1_S1x1x1_2 : S1.BroadcastsInDim S1x1x1 (![2] : Fin 1 → Fin S1x1x1.rank)
  bcast_S1x1x1_S32x100000x1_0_1_2 : S1x1x1.BroadcastsInDim S32x100000x1 (![0, 1, 2] : Fin 3 → Fin S32x100000x1.rank)
  reducesTo_S32x100000x1_S32x100000_d2 : S32x100000x1.ReducesTo [2] S32x100000
  h_S_ : 0 < S_.numel
  bcast_S32x100000_S32x100000x16_0_1 : S32x100000.BroadcastsInDim S32x100000x16 (![0, 1] : Fin 2 → Fin S32x100000x16.rank)
  bcast_S_S32x100000x16 : S_.BroadcastsInDim S32x100000x16 (![] : Fin 0 → Fin S32x100000x16.rank)
  bcast_S16_S1x1x16_2 : S16.BroadcastsInDim S1x1x16 (![2] : Fin 1 → Fin S1x1x16.rank)
  bcast_S1x1x16_S32x100000x16_0_1_2 : S1x1x16.BroadcastsInDim S32x100000x16 (![0, 1, 2] : Fin 3 → Fin S32x100000x16.rank)
  dot_S10000x10_S10x16_S10000x16_1_0_0_1_n_n_wf : DotDims.WF S10000x10 S10x16 S10000x16 [1] [0] [0] [1] [] []
  gather_S10000x16_S32x100000x1_S32x100000x16_2_0_n_n_0_2_116_wf : GatherDims.WF S10000x16 S32x100000x1 S32x100000x16 [2] [0] [] [0] [] 2 ![1, 16]

variable [Facts₀]

def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def gather_S10000x16_S32x100000x1_S32x100000x16_2_0_n_n_0_2_116 : GatherDims S10000x16 S32x100000x1 S32x100000x16 where
  offsetDims := [2]
  collapsedSliceDims := [0]
  operandBatchingDims := []
  startIndicesBatchingDims := []
  startIndexMap := [0]
  indexVectorDim := 2
  sliceSizes := ![1, 16]
  wf := gather_S10000x16_S32x100000x1_S32x100000x16_2_0_n_n_0_2_116_wf

class Facts : Prop extends Facts₀ where

variable [Facts]
-- ==== Proof.Spec.lean ====
/-
  The function both programs compute.

  A table of 10000 rows and 16 columns is the product of the spline basis X (10000 by 10) with the coefficient
  matrix K (10 by 16): entry (n, f) is the sum over the ten bases k of X (n, k) · K (k, f). Every index word of the
  32 by 100000 index array names a row of that table, and the result at (a, p, f) is the table's entry in row
  idx (a, p) and column f, plus the bias of column f.
-/
import Idealize.ShloMosaic.PureOps.Ideal
import Idealize.ShloMosaic.Lib.ValueIdx

noncomputable section

namespace Cert.Spec

open Idealize.ShloMosaic Idealize.ShloMosaic.ValueIdx

abbrev SIdx : Shape := ⟨2, ![32, 100000]⟩
abbrev SX : Shape := ⟨2, ![10000, 10]⟩
abbrev SK : Shape := ⟨2, ![10, 16]⟩
abbrev SB : Shape := ⟨1, ![16]⟩
abbrev ST : Shape := ⟨2, ![10000, 16]⟩
abbrev SOut : Shape := ⟨3, ![32, 100000, 16]⟩

/-- The row of the table an index word names (a word below 10000 names the row of its own value). -/
def rowOf (w : BitVec 32) : Fin 10000 := ⟨w.toNat % 10000, Nat.mod_lt _ (by decide)⟩

theorem rowOf_val (w : BitVec 32) (h : w.toNat < 10000) : (rowOf w).val = w.toNat := Nat.mod_eq_of_lt h

/-- The table X · K: entry (n, f) is the sum over the bases k of X (n, k) · K (k, f). -/
def table (X : FVec Ideal SX .f32) (Kw : FVec Ideal SK .f32) : FVec Ideal ST .f32 :=
  fun j => ∑ k : Fin 10, X (ix2 (j 0) k) * Kw (ix2 k (j 1))

theorem table_apply (X : FVec Ideal SX .f32) (Kw : FVec Ideal SK .f32) (n : Fin 10000) (f : Fin 16) :
    table X Kw (ix2 n f) = ∑ k : Fin 10, X (ix2 n k) * Kw (ix2 k f) := rfl

/-- The result: at (a, p, f) the table's entry in the row idx (a, p) names and column f, plus the bias of column f. -/
def G (idx : IVec SIdx 32) (X : FVec Ideal SX .f32) (Kw : FVec Ideal SK .f32) (b : FVec Ideal SB .f32) :
    FVec Ideal SOut .f32 :=
  fun j => table X Kw (ix2 (rowOf (idx (ix2 (j 0) (j 1)))) (j 2)) + b (ix1 (j 2))

theorem G_apply (idx : IVec SIdx 32) (X : FVec Ideal SX .f32) (Kw : FVec Ideal SK .f32) (b : FVec Ideal SB .f32)
    (a : Fin 32) (p : Fin 100000) (f : Fin 16) :
    G idx X Kw b (ix3 a p f) = table X Kw (ix2 (rowOf (idx (ix2 a p))) f) + b (ix1 f) := rfl

end Cert.Spec

end
-- ==== Proof.PreDecode.lean ====
/-
  What the precondition says of the inputs: every index word is a row number of the table, and every entry of the
  spline basis and of the coefficient matrix is a real number.
-/
import proofs.«409968_j12807592476724_2_alg».proof.Pre_finite_inputs
import proofs.«409968_j12807592476724_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs

/-- The result of a reduction over every axis has one index. -/
local instance : Subsingleton S_.Idx := ⟨fun a b => funext fun d => d.elim0⟩

/-- A 32-bit word that is at least 0 and below 10000 as a signed number is below 10000 as a natural number: a signed
    word that is not negative has its top bit clear, so its signed and unsigned readings agree. -/
theorem toNat_lt_of_signed_range (w : BitVec 32) (h0 : IntOp.cmpi .sge w 0#32 = 1#1)
    (h1 : IntOp.cmpi .slt w 10000#32 = 1#1) : w.toNat < 10000 := by
  have hnn : (0 : Int) ≤ w.toInt := by
    unfold IntOp.cmpi at h0
    rw [StableHlo.Predicate.ofBool_eq_one_iff] at h0
    simpa [BitVec.sle] using h0
  have hsmall : w.toNat < 2 ^ 31 := by
    rw [BitVec.toInt_eq_toNat_cond] at hnn
    have := w.isLt
    split at hnn <;> omega
  have hlt := (StableHlo.Predicate.slt_iff_toNat hsmall (by decide)).1 h1
  simpa using hlt

/-- An extended real whose absolute value max x (-x) is below +∞ (the value of the pattern 0x7F800000) is a real
    number: it is neither +∞ nor -∞. -/
theorem real_of_abs_lt_inf (x : EReal)
    (h : Ideal.cmp .olt (max x (-x)) (Ideal.ofBits .f32 0x7F800000#32) = 1#1) : ∃ y : ℝ, x = (y : EReal) := by
  have htop : Ideal.ofBits .f32 0x7F800000#32 = (⊤ : EReal) := by simp [Ideal.ofBits, Ideal.ieee]
  rw [htop] at h
  unfold Ideal.cmp at h
  rw [StableHlo.Predicate.ofBool_eq_one_iff] at h
  have hlt : max x (-x) < ⊤ := by simpa using h
  induction x using EReal.rec with
  | bot => simp at hlt
  | coe y => exact ⟨y, rfl⟩
  | top => simp at hlt

/-- Under the precondition every index word is below 10000 as a natural number (so it is not negative as a signed
    word), and every entry of X and of K is a real number. -/
theorem of_pre [Cert.Pre_finite_inputs.Facts] (idx : IVec S32x100000 32) (X : FVec Ideal S10000x10 .f32)
    (Kw : FVec Ideal S10x16 .f32) (b : FVec Ideal S16 .f32)
    (h : Cert.Pre_finite_inputs.fn (F := Ideal) idx X Kw b = fun _ => 1#1) :
    (∀ i, (idx i).toNat < 10000) ∧ (∀ i, ∃ y : ℝ, X i = (y : EReal)) ∧ (∀ i, ∃ y : ℝ, Kw i = (y : EReal)) := by
  -- the precondition at its one index: a conjunction of four reductions by "and", each equal to 1
  have e := congrFun h ValueIdx.ix0
  dsimp only [Cert.Pre_finite_inputs.fn, Cert.Pre_finite_inputs.fn_part1] at e
  obtain ⟨hXKb, hI⟩ := IntOp.andi_eq_one.1 e
  obtain ⟨hXK, -⟩ := IntOp.andi_eq_one.1 hXKb
  obtain ⟨hX, hK⟩ := IntOp.andi_eq_one.1 hXK
  refine ⟨fun i => ?_, fun i => ?_, fun i => ?_⟩
  · -- at every position both signed comparisons of the index word hold
    have hi := Host.reduce_andi_all _ _ _ _ ix0 hI i
    obtain ⟨h0, h1⟩ := IntOp.andi_eq_one.1 hi
    exact toNat_lt_of_signed_range (idx i) h0 h1
  · -- at every position |X| is below +∞
    exact real_of_abs_lt_inf (X i) (Host.reduce_andi_all _ _ _ _ ix0 hX i)
  · -- at every position |K| is below +∞
    exact real_of_abs_lt_inf (Kw i) (Host.reduce_andi_all _ _ _ _ ix0 hK i)

end Cert.PreDecode

end
-- ==== Proof.KGlue.lean ====
/-
  The host operations around the two kernel regions, read at an index: the clamp and the flattening of the index
  array before the gather region, and the unflattening of its result after it.
-/
import proofs.«409968_j12807592476724_2_alg».proof.Proof.Gen.KernelIdeal.Frame
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A buffer that no operation of a stretch writes holds after the stretch what it held before it: every reference
    the stretch writes is told apart from the buffer's. -/
local macro "stretch_keeps" ops:ident " at " r:term : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The two recasts read at an index, and the clamp of a word

Both recasts keep the row-major position: row a · 100000 + p of the flat array is entry (a, p) of the 32 by 100000
one. -/

/-- A 3200000 by 16 array recast to 32 by 100000 by 16 reads, at (a, p, f), the operand at row a · 100000 + p and
    column f: both indices have row-major position (a · 100000 + p) · 16 + f. -/
theorem shapeCast_rows_apply {α : Type} (x : S3200000x16.Idx → α) (h : S3200000x16.ShapeCasts S32x100000x16)
    (a : Fin 32) (p : Fin 100000) (f : Fin 16) :
    shapeCast S32x100000x16 x h (ix3 a p f) = x (ix2 (⟨a.val * 100000 + p.val, by omega⟩ : Fin 3200000) f) :=
  shapeCast_apply x h _ _ (by
    rw [Shape.rowMajor_val_two, Shape.rowMajor_val_three]
    show (a.val * 100000 + p.val) * 16 + f.val = (a.val * 100000 + p.val) * 16 + f.val
    rfl)

/-- A 32 by 100000 array flattened to 3200000 entries reads, at a · 100000 + p, the operand at (a, p). -/
theorem shapeCast_flat_apply {α : Type} (x : S32x100000.Idx → α) (h : S32x100000.ShapeCasts S3200000)
    (a : Fin 32) (p : Fin 100000) :
    shapeCast S3200000 x h (ix1 (⟨a.val * 100000 + p.val, by omega⟩ : Fin 3200000)) = x (ix2 a p) :=
  shapeCast_apply x h _ _ (by
    rw [Shape.rowMajor_val_two, Shape.rowMajor_val_one]
    show a.val * 100000 + p.val = a.val * 100000 + p.val
    rfl)

/-- The clamp of a word to [0, 9999], as the program writes it (the smaller of 9999 and the larger of 0 and the
    word, both compared as signed words), is the word itself when its value is below 10000: such a word is
    nonnegative as a signed word, so it is the larger of 0 and itself, and it does not exceed 9999. -/
theorem clamp_word (w : BitVec 32) (hw : w.toNat < 10000) : IntOp.minsi 9999#32 (IntOp.maxsi 0#32 w) = w := by
  have hti : w.toInt = w.toNat := StableHlo.Predicate.toInt_eq_toNat_of_lt (by omega)
  have h0 : (0#32 : BitVec 32).toInt = 0 := by decide
  have h9 : (9999#32 : BitVec 32).toInt = 9999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The unflattening after the gather region, as one equation of arrays: the result array is the gather region's
    output array recast from 3200000 rows of 16 to 32 by 100000 rows of 16. -/
theorem W6_v4_eq (c : Dev nD) :
    (W6 m ρ c (Proc.devRef .tc main_v4) : Vec F S32x100000x16 .f32)
      = shapeCast S32x100000x16 ((dat1 (V4 m ρ) c).arrAt 3 cfg1.N : Vec F S3200000x16 .f32)
          shapeCasts_S3200000x16_S32x100000x16 := by
  show StableHlo.after hostOps2 _ (Proc.devRef .tc main_v4) = _
  after_results
  rw [show W5 m ρ c (Proc.devRef .tc main_v3) = (dat1 (V4 m ρ) c).arrAt 3 cfg1.N from W5_arr m ρ c 3]
  rfl

/-- The result array at (a, p, f) is the gather region's output array at row a · 100000 + p and column f. -/
theorem W6_v4_apply (c : Dev nD) (a : Fin 32) (p : Fin 100000) (f : Fin 16) :
    (W6 m ρ c (Proc.devRef .tc main_v4) : Vec F S32x100000x16 .f32) (ix3 a p f)
      = ((dat1 (V4 m ρ) c).arrAt 3 cfg1.N : Vec F S3200000x16 .f32)
          (ix2 (⟨a.val * 100000 + p.val, by omega⟩ : Fin 3200000) f) := by
  rw [W6_v4_eq m ρ c]
  exact shapeCast_rows_apply _ _ a p f

/-- The clamp and the flattening before the gather region, as one equation of arrays: the region's index array is
    the index argument clamped entry by entry to [0, 9999] and flattened. The index argument is no array of the
    first region, so that region leaves it as launched. -/
theorem V4_v2_eq (c : Dev nD) :
    (V4 m ρ c main_v2 : Vec F S3200000 .i32)
      = shapeCast S3200000
          (minsi (broadcastInDim S32x100000 ![] bcast_S_S32x100000 (constantI S_ 32 9999#32))
            (maxsi (broadcastInDim S32x100000 ![] bcast_S_S32x100000 (constantI S_ 32 0#32))
              (m ((c.tc : Thread nD τ).loc main_arg0) : Vec F S32x100000 .i32)))
          shapeCasts_S32x100000_S3200000 := by
  have e : W1 m ρ c (Proc.devRef .tc main_arg0) = m ((c.tc : Thread nD τ).loc main_arg0) :=
    W1_of_ne m ρ c main_arg0 (by decide)
  show StableHlo.after hostOps1_2 (StableHlo.after hostOps1_1 (StableHlo.after hostOps1 (W1 m ρ c)))
    (Proc.devRef .tc main_v2) = _
  after_results
  show (fun i => shapeCast S3200000
          (minsi (broadcastInDim S32x100000 ![] bcast_S_S32x100000 (constantI S_ 32 9999#32))
            (maxsi (broadcastInDim S32x100000 ![] bcast_S_S32x100000 (constantI S_ 32 0#32))
              (W1 m ρ c (Proc.devRef .tc main_arg0) : Vec F S32x100000 .i32)))
          shapeCasts_S32x100000_S3200000 i) = _
  rw [e]

/-- The flattened, clamped index array the gather region reads: at a · 100000 + p it is the index word (a, p) itself
    when that word is a row number (the clamp to [0, 9999] leaves it). -/
theorem V4_v2_apply (c : Dev nD) (a : Fin 32) (p : Fin 100000)
    (h : ((m ((c.tc : Thread nD τ).loc main_arg0) : Vec F S32x100000 .i32) (ix2 a p)).toNat < 10000) :
    (V4 m ρ c main_v2 : Vec F S3200000 .i32) (ix1 (⟨a.val * 100000 + p.val, by omega⟩ : Fin 3200000))
      = (m ((c.tc : Thread nD τ).loc main_arg0) : Vec F S32x100000 .i32) (ix2 a p) := by
  rw [V4_v2_eq m ρ c, shapeCast_flat_apply _ _ a p]
  exact clamp_word _ h

/-- The table the gather region reads is what the first region left in its output array: no host operation between
    the two regions writes that array. -/
theorem V4_v0 (c : Dev nD) : V4 m ρ c main_v0 = (dat0 (V0 m ρ) c).arrAt 2 cfg0.N :=
  calc W4 m ρ c (Proc.devRef .tc main_v0)
    _ = W3 m ρ c (Proc.devRef .tc main_v0) := by stretch_keeps hostOps1_2 at main_v0
    _ = W2 m ρ c (Proc.devRef .tc main_v0) := by stretch_keeps hostOps1_1 at main_v0
    _ = W1 m ρ c (Proc.devRef .tc main_v0) := by stretch_keeps hostOps1 at main_v0
    _ = (dat0 (V0 m ρ) c).arrAt 2 cfg0.N := W1_arr m ρ c 2

/-- The bias the gather region reads is the bias argument: no host operation before the region writes it, and it is
    no array of the first region. -/
theorem V4_arg3 (c : Dev nD) : V4 m ρ c main_arg3 = m ((c.tc : Thread nD τ).loc main_arg3) :=
  calc W4 m ρ c (Proc.devRef .tc main_arg3)
    _ = W3 m ρ c (Proc.devRef .tc main_arg3) := by stretch_keeps hostOps1_2 at main_arg3
    _ = W2 m ρ c (Proc.devRef .tc main_arg3) := by stretch_keeps hostOps1_1 at main_arg3
    _ = W1 m ρ c (Proc.devRef .tc main_arg3) := by stretch_keeps hostOps1 at main_arg3
    _ = W0 m ρ c (Proc.devRef .tc main_arg3) := W1_of_ne m ρ c main_arg3 (by decide)
    _ = m ((c : Thread nD τ).loc main_arg3) := rfl

end Cert.KernelIdeal.KV

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KRegion0.lean ====
/-
  The first region (one grid point, whole blocks): its output array is the matrix product of its two input arrays.
-/
import proofs.«409968_j12807592476724_2_alg».proof.Proof.Gen.KernelIdeal.Frame
import proofs.«409968_j12807592476724_2_alg».proof.Proof.LibMatmulPlain
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

namespace SplineRegion

/-- The zero offsets of a whole-buffer access, as a constant function. -/
theorem zero_offsets : (![0, 0] : Fin 2 → Nat) = fun _ => 0 := funext fun a => by fin_cases a <;> rfl

section AtEntry

variable (V : (c : Dev nD) → (b : Ref sig .tc) → Buf (Elt F) ((c : Thread nD τ).loc b))

/-- The grid has one point, and there every window's block index is zero on both axes: each block starts at the
    origin of its array. -/
theorem block_index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of the basis matrix X at the point is the whole 10000 by 10 array: entry (r, k) of the block sits at
    row 0 · 10000 + r and column 0 · 10 + k. -/
theorem basis_block (c : Dev nD) (t : Fin cfg0.N) :
    (iblk0 V c 0 t : Vec F S10000x10 .f32) = V c main_arg1 := by
  obtain ⟨e0, e1, -, -, -, -⟩ := block_index_zero t
  funext j
  show V c main_arg1 (((cfg0.win 0).blk t).view.emb j) = V c main_arg1 j
  congr 1
  funext a; apply Fin.ext
  match a with
  | ⟨0, _⟩ => show win0_0.index t (0 : Fin 2) * 10000 + 1 * (j 0).val = (j 0).val; omega
  | ⟨1, _⟩ => show win0_0.index t (1 : Fin 2) * 10 + 1 * (j 1).val = (j 1).val; omega

/-- The block of the coefficient matrix K at the point is the whole 10 by 16 array. -/
theorem coeff_block (c : Dev nD) (t : Fin cfg0.N) :
    (iblk0 V c 1 t : Vec F S10x16 .f32) = V c main_arg2 := by
  obtain ⟨-, -, e2, e3, -, -⟩ := block_index_zero t
  funext j
  show V c main_arg2 (((cfg0.win 1).blk t).view.emb j) = V c main_arg2 j
  congr 1
  funext a; apply Fin.ext
  match a with
  | ⟨0, _⟩ => show win0_1.index t (0 : Fin 2) * 10 + 1 * (j 0).val = (j 0).val; omega
  | ⟨1, _⟩ => show win0_1.index t (1 : Fin 2) * 16 + 1 * (j 1).val = (j 1).val; omega

/-- What the point writes back is its block of the product of the two whole input arrays: the body loads both staging
    buffers whole, stores the product over the whole output buffer, and the output block is the whole table. -/
theorem written_back (c : Dev nD) (t : Fin cfg0.N) :
    (dat0 V c).flushed 2 t
      = ((cfg0.win 2).blk t).view.read (Elt F) (k0_pay1 (V c main_arg1) (V c main_arg2)) := by
  show (cfg0.win 2).cut (grid0.coords t) ((dat0 V c).after 2 t) = _
  rw [after0_2]
  unfold out0_2
  rw [View.canon_unit_zero zero_offsets]
  simp only [View.ld_unit_zero (S := S10000x10) zero_offsets, View.ld_unit_zero (S := S10x16) zero_offsets]
  rw [basis_block, coeff_block]
  obtain ⟨-, -, -, -, e4, e5⟩ := block_index_zero t
  funext j
  show k0_pay1 (V c main_arg1) (V c main_arg2) j
    = k0_pay1 (V c main_arg1) (V c main_arg2) (((cfg0.win 2).blk t).view.emb j)
  congr 1
  funext a; apply Fin.ext
  match a with
  | ⟨0, _⟩ => show (j 0).val = win0_2.index t (0 : Fin 2) * 10000 + 1 * (j 0).val; omega
  | ⟨1, _⟩ => show (j 1).val = win0_2.index t (1 : Fin 2) * 16 + 1 * (j 1).val; omega

/-- An index of the table lies in the point's output block iff, on each axis, it lies in the block's range. -/
theorem mem_table_block (t : Fin cfg0.N) (i : S10000x16.Idx) :
    i ∈ ((cfg0.win 2).blk t).view.set
      ↔ ∀ a : Fin 2, win0_2.index t a * S10000x16.size a ≤ (i a).val
          ∧ (i a).val < win0_2.index t a * S10000x16.size a + S10000x16.size a := by
  show i ∈ ((View.whole main_v0).slice (win0_2.rect t)).set ↔ _
  rw [View.set_slice_whole, Rect.mem_set_unit]
  exact Iff.rfl

/-- The one point's output block covers the whole table. -/
theorem table_covered (i : S10000x16.Idx) :
    ∃ t : Fin cfg0.N, (cfg0.win 2).flush t = true ∧ i ∈ ((cfg0.win 2).blk t).view.set := by
  refine ⟨t0_0, flush0_2 t0_0, ?_⟩
  rw [mem_table_block]
  obtain ⟨-, -, -, -, e4, e5⟩ := block_index_zero t0_0
  have h0 : (i 0).val < 10000 := (i 0).isLt
  have h1 : (i 1).val < 16 := (i 1).isLt
  intro a
  match a with
  | ⟨0, _⟩ =>
    show win0_2.index t0_0 (0 : Fin 2) * 10000 ≤ (i 0).val ∧ (i 0).val < win0_2.index t0_0 (0 : Fin 2) * 10000 + 10000
    omega
  | ⟨1, _⟩ =>
    show win0_2.index t0_0 (1 : Fin 2) * 16 ≤ (i 1).val ∧ (i 1).val < win0_2.index t0_0 (1 : Fin 2) * 16 + 16
    omega

/-- So the output array after the region is the product of the two input arrays as the region found them. -/
theorem table_array (c : Dev nD) :
    (dat0 V c).arrAt 2 cfg0.N = k0_pay1 (V c main_arg1) (V c main_arg2) :=
  (dat0 V c).arrAt_eq_of_cover 2 (k0_pay1 (V c main_arg1) (V c main_arg2)) (fun t _ => written_back V c t) table_covered

end AtEntry

end SplineRegion

variable (m : (ℓ : Loc nD τ sig) → Buf (Elt F) ℓ) (ρ : Dev nD → PrngReg)

/-- What the first region leaves in its output array: the body's one payload of the two argument arrays. -/
theorem arr0 (c : Dev nD) :
    (dat0 (V0 m ρ) c).arrAt 2 cfg0.N
      = k0_pay1 (m ((c.tc : Thread nD τ).loc main_arg1)) (m ((c.tc : Thread nD τ).loc main_arg2)) :=
  SplineRegion.table_array (V0 m ρ) c

/-- That payload at (n, f): the sum over the ten bases k of X (n, k) · K (k, f). -/
theorem pay1_apply (X : Vec Ideal S10000x10 .f32) (Kw : Vec Ideal S10x16 .f32) (n : Fin 10000) (f : Fin 16) :
    k0_pay1 (F := Ideal) X Kw (ix2 n f) = ∑ k : Fin 10, X (ix2 n k) * Kw (ix2 k f) := by
  unfold k0_pay1
  exact Cert.Lib.MatmulPlain.matmul_zero_apply dot_S10000x10_S10x16_S10000x16_1_0_0_1_n_n rfl rfl rfl rfl rfl rfl
    (some .fp32) X Kw n f

end Cert.KernelIdeal.KV

end
-- ==== Proof.GatherSteps.lean ====
/-
  The arithmetic of the gather kernel's body.

  The body walks the table in 25 chunks of 400 rows. For a chunk starting at row n it forms, for each of the 5120
  index words w of its block, the row of indicators [w = n + j] (j < 400), and adds to an accumulator first the product
  of the indicators with the chunk, then their product with the chunk minus itself. On the extended reals an indicator
  times x is x or 0, so the first product adds the table's row w when n ≤ w < n + 400 and nothing otherwise; the
  chunk minus itself is 0 where the chunk's entries are real numbers, so the second product adds nothing. After the
  chunks up to row n the accumulator holds the table's row w for every w < n and 0 for the others; after all 25 it holds
  row w for every w < 10000.
-/
import proofs.«409968_j12807592476724_2_alg».proof.Proof.Gen.KernelIdeal
import proofs.«409968_j12807592476724_2_alg».proof.Proof.Gen.KernelIdeal.Skeleton
import proofs.«409968_j12807592476724_2_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Idealize.ShloMosaic Idealize.ShloMosaic.ValueIdx
open Cert.KernelIdeal Cert.KernelIdeal.Gen

/-! ## The three shapes of step, generic in the float instance -/

section Steps
variable {F : FTy → Type} [FloatOps F]

/-- The indicators of one chunk: entry (r, j) is 1 when the r-th index word is `off + j`, else 0. -/
def oneHot (off : BitVec 32) (v6 : IVec S5120x1 32) : FVec F S5120x400 .bf16 :=
  truncf .bf16 (sitofp .f32 (extui 32 (cmpi .eq (broadcastTo S5120x400 v6 broadcasts_S5120x1_S5120x400)
    (addi (broadcast S5120x400 off) (iota .tc S5120x400 32 [1] iota_S5120x400_d1_w32))) natLt_1_32)) bitsLt_bf16_f32

/-- The accumulator plus the indicators times the chunk. -/
def hiStep (o : FVec F S5120x400 .bf16) (tb : FVec F S400x16 .f32) (acc : Vec F S5120x16 .f32) : FVec F S5120x16 .f32 :=
  shapeCast S5120x16 (addf acc (matmul dot_S5120x400_S400x16_S5120x16_1_0_0_1_n_n none o
    (truncf .bf16 tb bitsLt_bf16_f32)
    (constant S5120x16 .f32 0x00000000#32))) shapeCasts_S5120x16_S5120x16

/-- The accumulator plus the indicators times (the chunk minus itself). -/
def loStep (o : FVec F S5120x400 .bf16) (tb : FVec F S400x16 .f32) (acc : Vec F S5120x16 .f32) : FVec F S5120x16 .f32 :=
  shapeCast S5120x16 (addf acc (matmul dot_S5120x400_S400x16_S5120x16_1_0_0_1_n_n none o
    (truncf .bf16 (subf tb tb) bitsLt_bf16_f32)
    (constant S5120x16 .f32 0x00000000#32))) shapeCasts_S5120x16_S5120x16

end Steps

/-! ## Sums of indicators on the extended reals -/

/-- A word below 10000 equals `off + j` (off a word of value n, n + 400 ≤ 10000, j < 400) exactly when its value is n + j. -/
theorem word_eq_iff (w off : BitVec 32) (n : ℕ) (hoff : off.toNat = n) (hn : n + 400 ≤ 10000) (j : Fin 400) :
    w = off + BitVec.ofNat 32 j.val ↔ w.toNat = n + j.val := by
  have hj := j.isLt
  constructor
  · intro h
    rw [h, BitVec.toNat_add, BitVec.toNat_ofNat, hoff]
    omega
  · intro h
    apply BitVec.eq_of_toNat_eq
    rw [BitVec.toNat_add, BitVec.toNat_ofNat, hoff, h]
    omega

/-- The sum over a chunk of indicator times entry: the entry of the word's own row when the word lies in the chunk,
    else 0. The chunk's entry j is `T (n + j)`. -/
theorem sum_indicator (T : ℕ → EReal) (w : ℕ) (n : ℕ) :
    (∑ j : Fin 400, (if w = n + j.val then (1 : EReal) else 0) * T (n + j.val))
      = if n ≤ w ∧ w < n + 400 then T w else 0 := by
  by_cases h : n ≤ w ∧ w < n + 400
  · rw [if_pos h]
    rw [Finset.sum_eq_single (⟨w - n, by omega⟩ : Fin 400)]
    · have e : w = n + (w - n) := by omega
      rw [if_pos e, one_mul, ← e]
    · intro j _ hj
      have : ¬ w = n + j.val := fun e => hj (Fin.ext (by simp only; omega))
      rw [if_neg this, zero_mul]
    · intro h'; exact absurd (Finset.mem_univ _) h'
  · rw [if_neg h]
    refine Finset.sum_eq_zero fun j _ => ?_
    have hj := j.isLt
    have : ¬ w = n + j.val := fun e => h ⟨by omega, by omega⟩
    rw [if_neg this, zero_mul]

/-- Indicators times zeros sum to zero. -/
theorem sum_indicator_zero (c : Fin 400 → EReal) : (∑ j : Fin 400, c j * (0 : EReal)) = 0 := by
  simp only [mul_zero, Finset.sum_const_zero]

/-! ## The steps read at an index, on the extended reals -/

/-- An equality test of two words, widened and read as a number: 1 when equal, 0 when not. -/
theorem indicator_val (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    have e : IntOp.cmpi .eq a a = 1#1 := by simp [IntOp.cmpi]
    rw [if_pos rfl, e]
    have : ((1#1 : BitVec 1).setWidth 32).toInt = 1 := by decide
    rw [this]; norm_num
  · have e : IntOp.cmpi .eq a b = 0#1 := by simp [IntOp.cmpi, beq_eq_false_iff_ne.mpr h]
    rw [if_neg h, e]
    have : ((0#1 : BitVec 1).setWidth 32).toInt = 0 := by decide
    rw [this]; norm_num

/-- The indicators at (r, j): 1 when the r-th index word is `off + j`, else 0. -/
theorem oneHot_apply (off : BitVec 32) (v6 : IVec S5120x1 32) (r : Fin 5120) (j : Fin 400) :
    oneHot (F := Ideal) off v6 (ix2 r j)
      = if v6 (ix2 r (0 : Fin 1)) = off + BitVec.ofNat 32 j.val then (1 : EReal) else 0 := by
  unfold oneHot
  rw [truncf_apply, sitofp_apply, extui_apply]
  have hA : broadcastTo S5120x400 v6 broadcasts_S5120x1_S5120x400 (ix2 r j) = v6 (ix2 r (0 : Fin 1)) :=
    broadcastTo_apply v6 _ (ix2 r j) (ix2 r (0 : Fin 1)) (fun a => by
      match a with
      | ⟨0, _⟩ => rfl
      | ⟨1, _⟩ => rfl)
  have hB : addi (broadcast S5120x400 off) (iota .tc S5120x400 32 [1] iota_S5120x400_d1_w32) (ix2 r j)
      = off + BitVec.ofNat 32 j.val := by
    show IntOp.addi (broadcast S5120x400 off (ix2 r j)) (iota .tc S5120x400 32 [1] iota_S5120x400_d1_w32 (ix2 r j)) = _
    rw [iota_single_apply]; rfl
  show FloatOps.sitofp .f32 ((IntOp.cmpi .eq (broadcastTo S5120x400 v6 broadcasts_S5120x1_S5120x400 (ix2 r j))
    (addi (broadcast S5120x400 off) (iota .tc S5120x400 32 [1] iota_S5120x400_d1_w32) (ix2 r j))).setWidth 32) = _
  rw [hA, hB, indicator_val]

/-- The first step at (r, f): the accumulator plus the sum over the chunk of indicator times entry. -/
theorem hiStep_apply (o : FVec Ideal S5120x400 .bf16) (tb : Vec Ideal S400x16 .f32) (acc : Vec Ideal S5120x16 .f32)
    (r : Fin 5120) (f : Fin 16) :
    hiStep (F := Ideal) o tb acc (ix2 r f) = acc (ix2 r f) + ∑ j : Fin 400, o (ix2 r j) * tb (ix2 j f) := by
  unfold hiStep
  rw [shapeCast_self, addf_apply]
  refine congrArg (acc (ix2 r f) + ·) ?_
  refine (Cert.Lib.MatmulPlain.matmul_zero_apply dot_S5120x400_S400x16_S5120x16_1_0_0_1_n_n rfl rfl rfl rfl rfl rfl none o _ r f).trans ?_
  refine Finset.sum_congr rfl fun j _ => ?_
  rw [truncf_apply]

/-- The second step at (r, f): the accumulator plus the sum over the chunk of indicator times (entry minus itself). -/
theorem loStep_apply (o : FVec Ideal S5120x400 .bf16) (tb : Vec Ideal S400x16 .f32) (acc : Vec Ideal S5120x16 .f32)
    (r : Fin 5120) (f : Fin 16) :
    loStep (F := Ideal) o tb acc (ix2 r f)
      = acc (ix2 r f) + ∑ j : Fin 400, o (ix2 r j) * (tb (ix2 j f) - tb (ix2 j f)) := by
  unfold loStep
  rw [shapeCast_self, addf_apply]
  refine congrArg (acc (ix2 r f) + ·) ?_
  refine (Cert.Lib.MatmulPlain.matmul_zero_apply dot_S5120x400_S400x16_S5120x16_1_0_0_1_n_n rfl rfl rfl rfl rfl rfl none o _ r f).trans ?_
  refine Finset.sum_congr rfl fun j _ => ?_
  rw [truncf_apply, subf_apply]

/-! ## The accumulator after the chunks up to a row -/

/-- Column f of the table as a function of the row number (0 past the table's end). -/
def col (x1 : Vec Ideal S10000x16 .f32) (f : Fin 16) (k : ℕ) : EReal :=
  if h : k < 10000 then x1 (ix2 (⟨k, h⟩ : Fin 10000) f) else 0

/-- After the chunks up to row n: entry (r, f) is the table's entry in the row the r-th index word names when that word is
    below n, else 0. -/
def Good (x0 : Vec Ideal S5120 .i32) (x1 : Vec Ideal S10000x16 .f32) (n : ℕ) (acc : Vec Ideal S5120x16 .f32) : Prop :=
  ∀ (r : Fin 5120) (f : Fin 16),
    acc (ix2 r f) = if (x0 (ix1 r)).toNat < n then col x1 f (x0 (ix1 r)).toNat else 0

/-- Before any chunk the accumulator is the zero block. -/
theorem good_zero (x0 : Vec Ideal S5120 .i32) (x1 : Vec Ideal S10000x16 .f32) {pay : Vec Ideal S5120x16 .f32}
    (e : pay = k1_pay4 (F := Ideal)) : Good x0 x1 0 pay := by
  intro r f
  rw [e, if_neg (Nat.not_lt_zero _)]
  unfold k1_pay4
  rw [shapeCast_self, broadcast_apply]
  exact Ideal.ofBits_zero_f32

/-- The column of index words the indicators are tested against is the block of index words itself. -/
theorem pay5_apply (v4 : Vec Ideal S5120 .i32) (r : Fin 5120) :
    k1_pay5 (F := Ideal) v4 (ix2 r (0 : Fin 1)) = v4 (ix1 r) := by
  unfold k1_pay5
  rw [shapeCast_apply _ _ (ix2 r (0 : Fin 1)) (ix1 r) (by
    rw [Shape.rowMajor_val_one, Shape.rowMajor_val_two]; simp), shapeCast_self]

/-- The first step of the chunk at row n takes the accumulator from "rows below n" to "rows below n + 400". -/
theorem good_hi (x0 : Vec Ideal S5120 .i32) (x1 : Vec Ideal S10000x16 .f32) (n : ℕ) (v6 : IVec S5120x1 32)
    (tb : Vec Ideal S400x16 .f32) {pay acc : Vec Ideal S5120x16 .f32}
    (hv6 : ∀ r : Fin 5120, v6 (ix2 r (0 : Fin 1)) = x0 (ix1 r))
    (hx0 : ∀ r : Fin 5120, (x0 (ix1 r)).toNat < 10000)
    (htb : ∀ (j : Fin 400) (f : Fin 16), tb (ix2 j f) = col x1 f (n + j.val))
    (hn : n + 400 ≤ 10000) (h : Good x0 x1 n acc)
    (e : pay = hiStep (oneHot (BitVec.ofNat 32 n) v6) tb acc) : Good x0 x1 (n + 400) pay := by
  intro r f
  rw [e, hiStep_apply, h r f]
  have hoff : (BitVec.ofNat 32 n).toNat = n := by rw [BitVec.toNat_ofNat]; omega
  have hsum : (∑ j : Fin 400, oneHot (F := Ideal) (BitVec.ofNat 32 n) v6 (ix2 r j) * tb (ix2 j f))
      = if n ≤ (x0 (ix1 r)).toNat ∧ (x0 (ix1 r)).toNat < n + 400 then col x1 f (x0 (ix1 r)).toNat else 0 := by
    rw [← sum_indicator (col x1 f) (x0 (ix1 r)).toNat n]
    refine Finset.sum_congr rfl fun j _ => ?_
    rw [oneHot_apply, hv6, htb]
    congr 1
    exact if_congr (word_eq_iff _ _ n hoff hn j) rfl rfl
  rw [hsum]
  by_cases h1 : (x0 (ix1 r)).toNat < n
  · rw [if_pos h1, if_neg (fun hh => by omega), if_pos (by omega), add_zero]
  · by_cases h2 : (x0 (ix1 r)).toNat < n + 400
    · rw [if_neg h1, if_pos ⟨by omega, h2⟩, if_pos h2, zero_add]
    · rw [if_neg h1, if_neg (fun hh => h2 hh.2), if_neg h2, add_zero]

/-- The second step of a chunk whose entries are real numbers leaves the accumulator as it is. -/
theorem good_lo (x0 : Vec Ideal S5120 .i32) (x1 : Vec Ideal S10000x16 .f32) (n : ℕ) (o : FVec Ideal S5120x400 .bf16)
    (tb : Vec Ideal S400x16 .f32) {pay acc : Vec Ideal S5120x16 .f32}
    (htb : ∀ j, ∃ y : ℝ, tb j = (y : EReal)) (h : Good x0 x1 n acc)
    (e : pay = loStep o tb acc) : Good x0 x1 n pay := by
  intro r f
  rw [e, loStep_apply, h r f]
  have hs : (∑ j : Fin 400, o (ix2 r j) * (tb (ix2 j f) - tb (ix2 j f))) = 0 := by
    refine Finset.sum_eq_zero fun j _ => ?_
    obtain ⟨y, hy⟩ := htb (ix2 j f)
    rw [hy, ← EReal.coe_sub, sub_self, EReal.coe_zero, mul_zero]
  rw [hs, add_zero]

/-- The last store: the accumulator plus the bias row. -/
theorem pay3_apply (acc : Vec Ideal S5120x16 .f32) (x2 : Vec Ideal S16 .f32) (r : Fin 5120) (f : Fin 16) :
    k1_pay3 (F := Ideal) acc x2 (ix2 r f) = acc (ix2 r f) + x2 (ix1 f) := by
  unfold k1_pay3
  rw [addf_apply]
  congr 1
  rw [broadcastTo_apply _ _ (ix2 r f) (ix2 (0 : Fin 1) f) (fun a => by
    match a with
    | ⟨0, _⟩ => rfl
    | ⟨1, _⟩ => rfl)]
  exact shapeCast_apply _ _ (ix2 (0 : Fin 1) f) (ix1 f) (by
    rw [Shape.rowMajor_val_one, Shape.rowMajor_val_two]; simp)

/-- A chunk of 400 rows read out of the table: its entry (j, f) is the table's entry (n + j, f). -/
theorem chunk_apply (x1 : Vec Ideal S10000x16 .f32) (n : ℕ)
    (hin : ∀ a, (![n, 0] : Fin 2 → ℕ) a + S400x16.size a ≤ S10000x16.size a) (j : Fin 400) (f : Fin 16) :
    View.ld x1 (Rect.unit (s := S10000x16) ![n, 0] S400x16.size hin) (ix2 j f) = col x1 f (n + j.val) := by
  have h0 : n + 400 ≤ 10000 := hin 0
  have hj := j.isLt
  unfold col
  rw [dif_pos (by omega)]
  show x1 _ = x1 _
  congr 1
  funext a
  apply Fin.ext
  match a with
  | ⟨0, _⟩ => show n + 1 * j.val = n + j.val; omega
  | ⟨1, _⟩ => show 0 + 1 * f.val = f.val; omega

end Cert.KernelIdeal.KV

end
-- ==== Proof.GatherBody.lean ====
/-
  The gather kernel's body: what one grid point leaves in its output block.

  The body zeroes an accumulator block, then for each of the 25 chunks of the table adds to it, through two stores,
  the chunk's rows selected by the block's index words; the output block is the accumulator plus the bias row. Each
  store covers the accumulator whole, so a load after it reads back exactly what was stored: the accumulator's value
  after the k-th store is the k-th step applied to its value after the (k-1)-th. Walking the 51 stores from the last
  to the first with the two step laws gives the accumulator the table's row for every index word below 10000.
-/
import proofs.«409968_j12807592476724_2_alg».proof.Proof.Gen.KernelIdeal.Frame
import proofs.«409968_j12807592476724_2_alg».proof.Proof.GatherSteps
import Idealize.ShloMosaic.Lib.Pipeline.Value
import Idealize.ShloMosaic.Lib.ValueLayout
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- A load of the whole block after several stores, the last of which covers the block, reads that last store's payload. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

section Body
variable (arg1 : Memref sig .tc .vmem S5120 .i32) (harg1 : arg1.IsWhole)
  (arg2 : Memref sig .tc .vmem S10000x16 .f32) (harg2 : arg2.IsWhole)
  (x0 : Vec Ideal S5120 .i32) (x1 : Vec Ideal S10000x16 .f32)

/-- The block of index words as the body loads it, viewed as a column: row r holds the r-th index word. -/
theorem v6_read (r : Fin 5120) :
    k1_pay5 (F := Ideal) (View.readAt (Elt Ideal) arg1.view (Rect.unit (s := S5120) ![0] S5120.size inb_S5120_S5120_0).toLoadRect (harg1.unread x0))
      (ix2 r (0 : Fin 1)) = x0 (ix1 r) := by
  rw [pay5_apply, View.readAt_eq_ld, harg1.read_unread, View.ld_unit_zero (S := S5120) hz1]

/-- A chunk as the body loads it: entry (j, f) is the table's entry (n + j, f). -/
theorem tb_read (n : ℕ) (hin : ∀ a, (![n, 0] : Fin 2 → ℕ) a + S400x16.size a ≤ S10000x16.size a) (j : Fin 400) (f : Fin 16) :
    shapeCast S400x16 (View.readAt (Elt Ideal) arg2.view (Rect.unit (s := S10000x16) ![n, 0] S400x16.size hin).toLoadRect (harg2.unread x1))
      shapeCasts_S400x16_S400x16 (ix2 j f) = col x1 f (n + j.val) := by
  refine (congrFun (shapeCast_self (s := S400x16) _ shapeCasts_S400x16_S400x16) _).trans ?_
  rw [View.readAt_eq_ld, harg2.read_unread, chunk_apply]

/-- A chunk of a table of real numbers holds real numbers. -/
theorem tb_fin (hx1 : ∀ j, ∃ y : ℝ, x1 j = (y : EReal)) (n : ℕ)
    (hin : ∀ a, (![n, 0] : Fin 2 → ℕ) a + S400x16.size a ≤ S10000x16.size a) (j : S400x16.Idx) :
    ∃ y : ℝ, shapeCast S400x16 (View.readAt (Elt Ideal) arg2.view (Rect.unit (s := S10000x16) ![n, 0] S400x16.size hin).toLoadRect (harg2.unread x1))
      shapeCasts_S400x16_S400x16 j = (y : EReal) := by
  obtain ⟨y, hy⟩ : ∃ y : ℝ, View.readAt (Elt Ideal) arg2.view (Rect.unit (s := S10000x16) ![n, 0] S400x16.size hin).toLoadRect (harg2.unread x1) j = (y : EReal) := by
    rw [View.readAt_eq_ld, harg2.read_unread]
    exact hx1 _
  exact ⟨y, (congrFun (shapeCast_self (s := S400x16) _ shapeCasts_S400x16_S400x16) j).trans hy⟩

end Body

/-- Walking back over a store of the second kind: the accumulator read after it satisfies what the accumulator before it did. -/
theorem peel_lo {x0 : Vec Ideal S5120 .i32} {x1 : Vec Ideal S10000x16 .f32} {n : ℕ}
    {X pay acc : Vec Ideal S5120x16 .f32} {L : List (View.Piece (Elt Ideal) S5120x16 .f32)}
    {o : FVec Ideal S5120x400 .bf16} {tb : FVec Ideal S400x16 .f32}
    (v : View sig .tc .vmem S5120x16 .f32) (inb : ∀ a, (![0, 0] : Fin 2 → ℕ) a + S5120x16.size a ≤ S5120x16.size a)
    (hX : X = v.readCov ((⟨Rect.unit ![0, 0] S5120x16.size inb, pay⟩ : View.Piece (Elt Ideal) S5120x16 .f32) :: L)
      (Rect.unit ![0, 0] S5120x16.size inb).toLoadRect)
    (e : pay = loStep o tb acc) (htb : ∀ j, ∃ y : ℝ, tb j = (y : EReal)) (h : Good x0 x1 n acc) : Good x0 x1 n X := by
  rw [hX, readCov_cons_whole v hz2]
  exact good_lo x0 x1 n o tb htb h e

/-- Walking back over a store of the first kind, for the chunk at row n. -/
theorem peel_hi {x0 : Vec Ideal S5120 .i32} {x1 : Vec Ideal S10000x16 .f32} (n : ℕ)
    {X pay acc : Vec Ideal S5120x16 .f32} {L : List (View.Piece (Elt Ideal) S5120x16 .f32)}
    {v6 : IVec S5120x1 32} {tb : FVec Ideal S400x16 .f32}
    (v : View sig .tc .vmem S5120x16 .f32) (inb : ∀ a, (![0, 0] : Fin 2 → ℕ) a + S5120x16.size a ≤ S5120x16.size a)
    (hX : X = v.readCov ((⟨Rect.unit ![0, 0] S5120x16.size inb, pay⟩ : View.Piece (Elt Ideal) S5120x16 .f32) :: L)
      (Rect.unit ![0, 0] S5120x16.size inb).toLoadRect)
    (e : pay = hiStep (oneHot (BitVec.ofNat 32 n) v6) tb acc)
    (hv6 : ∀ r : Fin 5120, v6 (ix2 r (0 : Fin 1)) = x0 (ix1 r))
    (hx0 : ∀ r : Fin 5120, (x0 (ix1 r)).toNat < 10000)
    (htb : ∀ (j : Fin 400) (f : Fin 16), tb (ix2 j f) = col x1 f (n + j.val))
    (hn : n + 400 ≤ 10000) (h : Good x0 x1 n acc) : Good x0 x1 (n + 400) X := by
  rw [hX, readCov_cons_whole v hz2]
  exact good_hi x0 x1 n v6 tb hv6 hx0 htb hn h e

/-- Walking back over the first store: the zero block. -/
theorem peel_zero {x0 : Vec Ideal S5120 .i32} {x1 : Vec Ideal S10000x16 .f32}
    {X pay : Vec Ideal S5120x16 .f32} {L : List (View.Piece (Elt Ideal) S5120x16 .f32)}
    (v : View sig .tc .vmem S5120x16 .f32) (inb : ∀ a, (![0, 0] : Fin 2 → ℕ) a + S5120x16.size a ≤ S5120x16.size a)
    (hX : X = v.readCov ((⟨Rect.unit ![0, 0] S5120x16.size inb, pay⟩ : View.Piece (Elt Ideal) S5120x16 .f32) :: L)
      (Rect.unit ![0, 0] S5120x16.size inb).toLoadRect)
    (e : pay = k1_pay4 (F := Ideal)) : Good x0 x1 0 X := by
  rw [hX, readCov_cons_whole v hz2]
  exact good_zero x0 x1 e

section Chain
variable (c : Dev nD) (arg1 : Memref sig .tc .vmem S5120 .i32) (harg1 : arg1.IsWhole)
  (arg2 : Memref sig .tc .vmem S10000x16 .f32) (harg2 : arg2.IsWhole) (arg5 : Memref sig .tc .vmem S5120x16 .f32)
  (x0 : Vec Ideal S5120 .i32) (x1 : Vec Ideal S10000x16 .f32)

-- One chunk, walked back: over its second store (which adds nothing), then over its first (which adds the rows
-- n … n + 399). Each store's payload is recognised as the step it is by unfolding definitions.
set_option hygiene false in
macro "chunk" n:num : tactic => `(tactic| (
  refine peel_lo _ _ rfl rfl (tb_fin arg2 harg2 x1 hx1 _ _) ?_
  refine peel_hi $n _ _ rfl rfl (v6_read arg1 harg1 x0) hx0 (tb_read arg2 harg2 x1 $n _) (by omega) ?_))

set_option maxHeartbeats 1600000 in
/-- The accumulator the body's last load reads: the table's row for every index word (all are below 10000). -/
theorem acc_good (hx0 : ∀ r : Fin 5120, (x0 (ix1 r)).toNat < 10000) (hx1 : ∀ j, ∃ y : ℝ, x1 j = (y : EReal)) :
    Good x0 x1 10000 (kernelRun1_A.sl.v657 (F := Ideal) c arg1 harg1 arg2 harg2 arg5 x0 x1) := by
  chunk 9600
  chunk 9200
  chunk 8800
  chunk 8400
  chunk 8000
  chunk 7600
  chunk 7200
  chunk 6800
  chunk 6400
  chunk 6000
  chunk 5600
  chunk 5200
  chunk 4800
  chunk 4400
  chunk 4000
  chunk 3600
  chunk 3200
  chunk 2800
  chunk 2400
  chunk 2000
  chunk 1600
  chunk 1200
  chunk 800
  chunk 400
  chunk 0
  exact peel_zero _ _ rfl rfl

end Chain

/-- One grid point of the gather kernel: with every index word of the point's block a row number and every entry of the
    table a real number, the output block's entry (r, f) is the table's entry in the row the r-th index word names and
    column f, plus the bias of column f. -/
theorem out_apply (c : Dev nD) (i : grid1.Coords) (arg1 : Memref sig .tc .vmem S5120 .i32) (harg1 : arg1.IsWhole)
    (arg2 : Memref sig .tc .vmem S10000x16 .f32) (harg2 : arg2.IsWhole) (arg3 : Memref sig .tc .vmem S16 .f32) (harg3 : arg3.IsWhole)
    (arg4 : Memref sig .tc .vmem S5120x16 .f32) (harg4 : arg4.IsWhole) (arg5 : Memref sig .tc .vmem S5120x16 .f32) (harg5 : arg5.IsWhole)
    (x0 : Vec Ideal S5120 .i32) (x1 : Vec Ideal S10000x16 .f32) (x2 : Vec Ideal S16 .f32)
    (hx0 : ∀ r : Fin 5120, (x0 (ix1 r)).toNat < 10000) (hx1 : ∀ j, ∃ y : ℝ, x1 j = (y : EReal))
    (r : Fin 5120) (f : Fin 16) :
    out1_A_3 (F := Ideal) c i arg1 harg1 arg2 harg2 arg3 harg3 arg4 harg4 arg5 harg5 x0 x1 x2 (ix2 r f)
      = x1 (ix2 (⟨(x0 (ix1 r)).toNat, hx0 r⟩ : Fin 10000) f) + x2 (ix1 f) := by
  unfold out1_A_3
  rw [View.read_writes_eq_canon _ _ _ (cover1_A_3 c i arg1 harg1 arg2 harg2 arg3 harg3 arg4 harg4 arg5 harg5 x0 x1 x2)]
  unfold kernelRun1_A
  dsimp only
  rw [View.canon_unit_zero hz2, pay3_apply, acc_good c arg1 harg1 arg2 harg2 arg5 x0 x1 hx0 hx1 r f, if_pos (hx0 r),
    View.readAt_eq_ld, harg3.read_unread, View.ld_unit_zero (S := S16) hz1]
  unfold col
  rw [dif_pos (hx0 r)]

end Cert.KernelIdeal.KV

end
-- ==== Proof.KRegion1.lean ====
/-
  The gather region (625 grid points, each writing one block of 5120 rows): its output array, row by row.
-/
import proofs.«409968_j12807592476724_2_alg».proof.Proof.Gen.KernelIdeal.Frame
import proofs.«409968_j12807592476724_2_alg».proof.Proof.GatherBody
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The table the region reads, as a 10000 by 16 array of extended reals. -/
abbrev tblArr (c : Dev nD) : Vec Ideal S10000x16 .f32 := V c main_v0
/-- The flattened index array the region reads: 3200000 index words. -/
abbrev idxArr (c : Dev nD) : Vec Ideal S3200000 .i32 := V c main_v2
/-- The bias the region reads: 16 extended reals. -/
abbrev biasArr (c : Dev nD) : Vec Ideal S16 .f32 := V c main_arg3

namespace GatherRegion

/-- Where each window's block starts at grid point t: the index words' block and the output's block are the t-th of
    their arrays along the rows; the table's and the bias's blocks are the whole arrays. -/
theorem block_index : ∀ t : Fin cfg1.N,
    win1_0.index t (0 : Fin 1) = t.val
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The index words of point t's block. -/
abbrev wordsAt (c : Dev nD) (t : Fin cfg1.N) : Vec Ideal S5120 .i32 := iblk1 V c 0 t
/-- The table as point t's block of it. -/
abbrev tableAt (c : Dev nD) (t : Fin cfg1.N) : Vec Ideal S10000x16 .f32 := iblk1 V c 1 t
/-- The bias as point t's block of it. -/
abbrev biasAt (c : Dev nD) (t : Fin cfg1.N) : Vec Ideal S16 .f32 := iblk1 V c 2 t

/-- Word r of point t's block of index words is word 5120 · t + r of the flattened index array. -/
theorem wordsAt_apply (c : Dev nD) (t : Fin cfg1.N) (r : Fin 5120) (i : Fin 3200000) (hi : i.val = 5120 * t.val + r.val) :
    wordsAt V c t (ix1 r) = idxArr V c (ix1 i) := by
  obtain ⟨e0, -, -, -, -, -⟩ := block_index t
  show V c main_v2 (((cfg1.win 0).blk t).view.emb (ix1 r)) = V c main_v2 (ix1 i)
  congr 1
  funext a; apply Fin.ext
  match a with
  | ⟨0, _⟩ => show win1_0.index t (0 : Fin 1) * 5120 + 1 * r.val = i.val; omega

/-- The table's block at every point is the whole table. -/
theorem tableAt_eq (c : Dev nD) (t : Fin cfg1.N) : tableAt V c t = tblArr V c := by
  obtain ⟨-, e1, e2, -, -, -⟩ := block_index t
  funext j
  show V c main_v0 (((cfg1.win 1).blk t).view.emb j) = V c main_v0 j
  congr 1
  funext a; apply Fin.ext
  match a with
  | ⟨0, _⟩ => show win1_1.index t (0 : Fin 2) * 10000 + 1 * (j 0).val = (j 0).val; omega
  | ⟨1, _⟩ => show win1_1.index t (1 : Fin 2) * 16 + 1 * (j 1).val = (j 1).val; omega

/-- The bias's block at every point is the whole bias. -/
theorem biasAt_eq (c : Dev nD) (t : Fin cfg1.N) : biasAt V c t = biasArr V c := by
  obtain ⟨-, -, -, e3, -, -⟩ := block_index t
  funext j
  show V c main_arg3 (((cfg1.win 2).blk t).view.emb j) = V c main_arg3 j
  congr 1
  funext a; apply Fin.ext
  match a with
  | ⟨0, _⟩ => show win1_2.index t (0 : Fin 1) * 16 + 1 * (j 0).val = (j 0).val; omega

/-- The whole output array as one function of the three arrays the region reads: at (i, f) the table's entry in the
    row the i-th index word names and column f, plus the bias of column f. -/
abbrev gathered (c : Dev nD)
    (hrange : ∀ i : Fin 3200000, (idxArr V c (ix1 i)).toNat < 10000) :
    Vec Ideal S3200000x16 .f32 :=
  fun j => tblArr V c
      (ix2 (⟨(idxArr V c (ix1 (j 0))).toNat, hrange (j 0)⟩ : Fin 10000) (j 1))
    + biasArr V c (ix1 (j 1))

/-- What point t leaves in its output block at (r, f): row r of the block is row i = 5120 · t + r of the array, so it
    is the table's entry in the row the i-th index word names and column f, plus the bias of column f. -/
theorem point_apply (c : Dev nD)
    (hrange : ∀ i : Fin 3200000, (idxArr V c (ix1 i)).toNat < 10000)
    (hfin : ∀ j, ∃ y : ℝ, tblArr V c j = (y : EReal))
    (t : Fin cfg1.N) (r : Fin 5120) (f : Fin 16) (i : Fin 3200000) (hi : i.val = 5120 * t.val + r.val) :
    outsAt1 V c t (ix2 r f)
      = tblArr V c (ix2 (⟨(idxArr V c (ix1 i)).toNat, hrange i⟩ : Fin 10000) f)
        + biasArr V c (ix1 f) := by
  have hN : cfg1.N = 625 := N_1
  have ht : t.val < 625 := by have := t.isLt; omega
  have hx0 : ∀ r' : Fin 5120, ((wordsAt V c t) (ix1 r')).toNat < 10000 := fun r' => by
    rw [wordsAt_apply V c t r' ⟨5120 * t.val + r'.val, by have := r'.isLt; omega⟩ rfl]; exact hrange _
  have hx1 : ∀ j, ∃ y : ℝ, tableAt V c t j = (y : EReal) := fun j => by rw [tableAt_eq]; exact hfin j
  unfold outsAt1
  refine (out_apply c (grid1.coords t) (ms1_0 t) (hs1_0 t) (ms1_1 t) (hs1_1 t) (ms1_2 t) (hs1_2 t) (ms1_3 t) (hs1_3 t)
    scM1_0 (Memref.isWhole_whole _) (wordsAt V c t) (tableAt V c t) (biasAt V c t) hx0 hx1 r f).trans ?_
  have hw : (⟨((wordsAt V c t) (ix1 r)).toNat, hx0 r⟩ : Fin 10000)
      = ⟨(idxArr V c (ix1 i)).toNat, hrange i⟩ :=
    Fin.ext (congrArg BitVec.toNat (wordsAt_apply V c t r i hi))
  rw [hw, tableAt_eq, biasAt_eq]

/-- What point t writes back is its block of the one whole-array function. -/
theorem written_back (c : Dev nD)
    (hrange : ∀ i : Fin 3200000, (idxArr V c (ix1 i)).toNat < 10000)
    (hfin : ∀ j, ∃ y : ℝ, tblArr V c j = (y : EReal))
    (t : Fin cfg1.N) :
    (dat1 V c).flushed 3 t = ((cfg1.win 3).blk t).view.read (Elt Ideal) (gathered V c hrange) := by
  show (cfg1.win 3).cut (grid1.coords t) ((dat1 V c).after 3 t) = _
  rw [after1_3]
  obtain ⟨-, -, -, -, e4, e5⟩ := block_index t
  have hN : cfg1.N = 625 := N_1
  have ht : t.val < 625 := by have := t.isLt; omega
  funext y
  obtain ⟨r, f, rfl⟩ : ∃ (r : Fin 5120) (f : Fin 16), y = ix2 r f := ⟨y 0, y 1, eq_ix2 y⟩
  show outsAt1 V c t (ix2 r f) = gathered V c hrange (((cfg1.win 3).blk t).view.emb (ix2 r f))
  have hemb : ((cfg1.win 3).blk t).view.emb (ix2 r f)
      = ix2 (⟨5120 * t.val + r.val, by have := r.isLt; omega⟩ : Fin 3200000) f := by
    funext a; apply Fin.ext
    match a with
    | ⟨0, _⟩ => show win1_3.index t (0 : Fin 2) * 5120 + 1 * r.val = 5120 * t.val + r.val; omega
    | ⟨1, _⟩ => show win1_3.index t (1 : Fin 2) * 16 + 1 * f.val = f.val; omega
  rw [hemb]
  exact point_apply V c hrange hfin t r f ⟨5120 * t.val + r.val, by have := r.isLt; omega⟩ rfl

/-- An index of the output array lies in point t's block iff, on each axis, it lies in the block's range. -/
theorem mem_out_block (t : Fin cfg1.N) (i : S3200000x16.Idx) :
    i ∈ ((cfg1.win 3).blk t).view.set
      ↔ ∀ a : Fin 2, win1_3.index t a * S5120x16.size a ≤ (i a).val
          ∧ (i a).val < win1_3.index t a * S5120x16.size a + S5120x16.size a := by
  show i ∈ ((View.whole main_v3).slice (win1_3.rect t)).set ↔ _
  rw [View.set_slice_whole, Rect.mem_set_unit]
  exact Iff.rfl

/-- The 625 output blocks of 5120 rows tile the 3200000 rows: row i lies in the block of point i / 5120. -/
theorem out_covered (i : S3200000x16.Idx) :
    ∃ t : Fin cfg1.N, (cfg1.win 3).flush t = true ∧ i ∈ ((cfg1.win 3).blk t).view.set := by
  have hN : cfg1.N = 625 := N_1
  have h0 : (i 0).val < 3200000 := (i 0).isLt
  have h1 : (i 1).val < 16 := (i 1).isLt
  obtain ⟨t, htv⟩ : ∃ t : Fin cfg1.N, t.val = (i 0).val / 5120 := ⟨⟨(i 0).val / 5120, by omega⟩, rfl⟩
  refine ⟨t, flush1_3 t, ?_⟩
  rw [mem_out_block]
  obtain ⟨-, -, -, -, e4, e5⟩ := block_index t
  intro a
  match a with
  | ⟨0, _⟩ =>
    show win1_3.index t (0 : Fin 2) * 5120 ≤ (i 0).val ∧ (i 0).val < win1_3.index t (0 : Fin 2) * 5120 + 5120
    omega
  | ⟨1, _⟩ =>
    show win1_3.index t (1 : Fin 2) * 16 ≤ (i 1).val ∧ (i 1).val < win1_3.index t (1 : Fin 2) * 16 + 16
    omega

/-- So the output array after the region is that function. -/
theorem out_array (c : Dev nD)
    (hrange : ∀ i : Fin 3200000, (idxArr V c (ix1 i)).toNat < 10000)
    (hfin : ∀ j, ∃ y : ℝ, tblArr V c j = (y : EReal)) :
    (dat1 (F := Ideal) V c).arrAt 3 cfg1.N = gathered V c hrange :=
  (dat1 (F := Ideal) V c).arrAt_eq_of_cover 3 (gathered V c hrange) (fun t _ => written_back V c hrange hfin t) out_covered

end GatherRegion

/-- The gather region's output array at (i, f): the table's entry in the row the i-th (flattened) index word names and
    column f, plus the bias of column f — for index words that are row numbers and a table of real numbers. -/
theorem arr1_apply (c : Dev nD)
    (hrange : ∀ i : Fin 3200000, (idxArr V c (ix1 i)).toNat < 10000)
    (hfin : ∀ j, ∃ y : ℝ, tblArr V c j = (y : EReal))
    (i : Fin 3200000) (f : Fin 16) :
    ((dat1 (F := Ideal) V c).arrAt 3 cfg1.N : Vec Ideal S3200000x16 .f32) (ix2 i f)
      = tblArr V c (ix2 (⟨(idxArr V c (ix1 i)).toNat, hrange i⟩ : Fin 10000) f)
        + biasArr V c (ix1 f) :=
  congrFun (GatherRegion.out_array V c hrange hfin) (ix2 i f)

end Cert.KernelIdeal.KV

end
-- ==== Proof.KValue.lean ====
/-
  The kernel program's result array is the specification: the gather region's rows are rows of the table the first
  region wrote, the table is the product of the two float arguments, the index words reach the gather region unchanged
  (the clamp leaves row numbers alone, the flattening only renumbers them), and the result array is the gather
  region's output array renumbered back.
-/
import proofs.«409968_j12807592476724_2_alg».proof.Proof.Spec
import proofs.«409968_j12807592476724_2_alg».proof.Proof.KRun
import proofs.«409968_j12807592476724_2_alg».proof.Proof.KGlue
import proofs.«409968_j12807592476724_2_alg».proof.Proof.KRegion0
import proofs.«409968_j12807592476724_2_alg».proof.Proof.KRegion1

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

/-- A finite sum of real numbers, taken on the extended reals, is a real number. -/
theorem exists_real_sum {ι : Type} (s : Finset ι) (g : ι → EReal) (hg : ∀ k, ∃ y : ℝ, g k = (y : EReal)) :
    ∃ y : ℝ, (∑ k ∈ s, g k) = (y : EReal) := by
  classical
  induction s using Finset.induction_on with
  | empty => exact ⟨0, by simp⟩
  | insert a s ha ih =>
    obtain ⟨ya, hya⟩ := hg a
    obtain ⟨ys, hys⟩ := ih
    exact ⟨ya + ys, by rw [Finset.sum_insert ha, hya, hys, EReal.coe_add]⟩

variable (m : (ℓ : Loc nD τ sig) → Buf (Elt Ideal) ℓ) (ρ : Dev nD → PrngReg)

/-- The arguments at their literal types. -/
abbrev idxA (c : Dev nD) : Vec Ideal S32x100000 .i32 := m ((c.tc : Thread nD τ).loc main_arg0)
abbrev xA (c : Dev nD) : Vec Ideal S10000x10 .f32 := m ((c.tc : Thread nD τ).loc main_arg1)
abbrev kA (c : Dev nD) : Vec Ideal S10x16 .f32 := m ((c.tc : Thread nD τ).loc main_arg2)
abbrev bA (c : Dev nD) : Vec Ideal S16 .f32 := m ((c.tc : Thread nD τ).loc main_arg3)

/-- The table the gather region reads, entry by entry: the product of the two float arguments. -/
theorem tbl_apply (c : Dev nD) (n : Fin 10000) (f : Fin 16) :
    tblArr (V4 m ρ) c (ix2 n f) = Cert.Spec.table (xA m c) (kA m c) (ix2 n f) := by
  show (V4 m ρ c main_v0 : Vec Ideal S10000x16 .f32) (ix2 n f) = _
  rw [V4_v0, arr0, pay1_apply]
  rfl

/-- Its entries are real numbers when the two float arguments' are. -/
theorem tbl_fin (c : Dev nD) (hX : ∀ i, ∃ y : ℝ, xA m c i = (y : EReal)) (hK : ∀ i, ∃ y : ℝ, kA m c i = (y : EReal))
    (j : S10000x16.Idx) : ∃ y : ℝ, tblArr (V4 m ρ) c j = (y : EReal) := by
  obtain ⟨n, f, rfl⟩ : ∃ (n : Fin 10000) (f : Fin 16), j = ix2 n f := ⟨j 0, j 1, eq_ix2 j⟩
  rw [tbl_apply, Cert.Spec.table_apply]
  refine exists_real_sum _ _ fun k => ?_
  obtain ⟨y1, h1⟩ := hX (ix2 n k)
  obtain ⟨y2, h2⟩ := hK (ix2 k f)
  exact ⟨y1 * y2, by rw [h1, h2, EReal.coe_mul]⟩

/-- The flattened index array the gather region reads holds the index words themselves. -/
theorem idx_apply (c : Dev nD) (hidx : ∀ i, (idxA m c i).toNat < 10000) (a : Fin 32) (p : Fin 100000) :
    idxArr (V4 m ρ) c (ix1 (⟨a.val * 100000 + p.val, by omega⟩ : Fin 3200000)) = idxA m c (ix2 a p) :=
  V4_v2_apply m ρ c a p (hidx (ix2 a p))

theorem idx_range (c : Dev nD) (hidx : ∀ i, (idxA m c i).toNat < 10000) (i : Fin 3200000) :
    (idxArr (V4 m ρ) c (ix1 i)).toNat < 10000 := by
  have hi := i.isLt
  have e : i = (⟨(⟨i.val / 100000, by omega⟩ : Fin 32).val * 100000 + (⟨i.val % 100000, Nat.mod_lt _ (by omega)⟩ : Fin 100000).val,
      by simp only; omega⟩ : Fin 3200000) := Fin.ext (by simp only; omega)
  rw [e, idx_apply m ρ c hidx]
  exact hidx _

/-- The row of the table the flattened index word at a · 100000 + p names is the row the index word (a, p) names. -/
theorem row_eq (c : Dev nD) (hidx : ∀ i, (idxA m c i).toNat < 10000) (a : Fin 32) (p : Fin 100000)
    (h : (idxArr (V4 m ρ) c (ix1 (⟨a.val * 100000 + p.val, by omega⟩ : Fin 3200000))).toNat < 10000) :
    (⟨(idxArr (V4 m ρ) c (ix1 (⟨a.val * 100000 + p.val, by omega⟩ : Fin 3200000))).toNat, h⟩ : Fin 10000)
      = Cert.Spec.rowOf (idxA m c (ix2 a p)) := by
  revert h
  rw [idx_apply m ρ c hidx a p]
  intro h
  exact Fin.ext (Cert.Spec.rowOf_val _ (hidx _)).symm

/-- The result array is the specification of the four arguments. -/
theorem result_eq (c : Dev nD) (hidx : ∀ i, (idxA m c i).toNat < 10000)
    (hX : ∀ i, ∃ y : ℝ, xA m c i = (y : EReal)) (hK : ∀ i, ∃ y : ℝ, kA m c i = (y : EReal)) :
    (W6 m ρ c (Proc.devRef .tc main_v4) : Vec Ideal S32x100000x16 .f32)
      = Cert.Spec.G (idxA m c) (xA m c) (kA m c) (bA m c) := by
  funext j
  obtain ⟨a, p, f, rfl⟩ : ∃ (a : Fin 32) (p : Fin 100000) (f : Fin 16), j = ix3 a p f := ⟨j 0, j 1, j 2, eq_ix3 j⟩
  rw [W6_v4_apply, Cert.Spec.G_apply,
    arr1_apply (V4 m ρ) c (idx_range m ρ c hidx) (tbl_fin m ρ c hX hK) _ f, tbl_apply]
  have hb : biasArr (V4 m ρ) c = bA m c := V4_arg3 m ρ c
  rw [hb, row_eq m ρ c hidx a p]

/-- The kernel program's run: the result array ends at the specification, the arguments unchanged. -/
theorem run (hidx : ∀ c i, (idxA m c i).toNat < 10000)
    (hX : ∀ c i, ∃ y : ℝ, xA m c i = (y : EReal)) (hK : ∀ c i, ∃ y : ℝ, kA m c i = (y : EReal)) :
    θ_run defs (onTc (τ := τ) (main (F := Ideal))) ⟨m, fun _ => 0, ρ⟩ (fun r => ∀ c : Dev nD,
      r.2.mem ((c.tc : Thread nD τ).loc main_v4) = Cert.Spec.G (idxA m c) (xA m c) (kA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c (hidx c) (hX c) (hK c)), (h c).2⟩)
    (run_val m ρ)

end Cert.KernelIdeal.KV

end
-- ==== Proof.RefRun.lean ====
/-
  The reference's run: what its result array holds, as one term of the argument arrays.

  The reference is a straight line of tensor operations once its two outlined functions are put back where they are
  called: the product of the spline basis with the coefficient matrix; the index array with its negative entries
  moved up by the table's height; the test that the moved index lies in [0, 9999]; the gather of the product's rows at
  the moved index; the choice, entry by entry, between the gathered row and a not-a-number filler on that test; and
  the bias added along the last axis. Each of these is a function of the argument arrays alone, and the result array
  is their composition.
-/
import proofs.«409968_j12807592476724_2_alg».proof.ReferenceIdeal
import proofs.«409968_j12807592476724_2_alg».proof.Proof.Gen.ReferenceIdeal
import Idealize.ShloMosaic.Lib.StableHlo.Run

noncomputable section

namespace Cert.ReferenceIdeal.RefValue

open Idealize.ShloMosaic Idealize.ShloMosaic.TcCoe Idealize.SL.Sem
open Cert.ReferenceIdeal

variable {F : FTy → Type} [FloatOps F]

/-- The table: the spline basis times the coefficient matrix. -/
def shrunk (X : FVec F S10000x10 .f32) (Kw : FVec F S10x16 .f32) : FVec F S10000x16 .f32 :=
  Host.dotGeneral dot_S10000x10_S10x16_S10000x16_1_0_0_1_n_n none X Kw

/-- The index array with each negative entry moved up by the table's height, 10000. -/
def wrapped (idx : IVec S32x100000 32) : IVec S32x100000 32 :=
  select (cmpi .slt idx (broadcastInDim S32x100000 ![] Gen.bcast_S_S32x100000 (constantI S_ 32 0#32)))
    (addi idx (broadcastInDim S32x100000 ![] Gen.bcast_S_S32x100000 (constantI S_ 32 10000#32))) idx

/-- The moved index array as start indices of a gather: one more axis, of extent one. -/
def starts (idx : IVec S32x100000 32) : IVec S32x100000x1 32 :=
  broadcastInDim S32x100000x1 ![0, 1] Gen.bcast_S32x100000_S32x100000x1_0_1 (wrapped idx)

/-- Where the moved index names a row of the table: at least 0 and at most 9999, the conjunction taken along the
    axis of extent one. -/
def inRange (idx : IVec S32x100000 32) : IVec S32x100000 1 :=
  Host.reduce IntOp.andi
    (andi (cmpi .sge (starts idx) (broadcastInDim S32x100000x1 ![] Gen.bcast_S_S32x100000x1 (constantI S_ 32 0#32)))
      (cmpi .sle (starts idx)
        (broadcastInDim S32x100000x1 ![0, 1, 2] Gen.bcast_S1x1x1_S32x100000x1_0_1_2
          (broadcastInDim S1x1x1 ![2] Gen.bcast_S1_S1x1x1_2 (constantI S1 32 9999#32)))))
    (constantI S_ 1 1#1) Gen.reducesTo_S32x100000x1_S32x100000_d2 Gen.h_S_

/-- The rows of a table the moved index names, gathered. -/
def rows (T : FVec F S10000x16 .f32) (idx : IVec S32x100000 32) : FVec F S32x100000x16 .f32 :=
  Host.gather gather_S10000x16_S32x100000x1_S32x100000x16_2_0_n_n_0_2_116 T (starts idx)

/-- The gathered rows where the moved index names a row, a not-a-number filler elsewhere. -/
def taken (T : FVec F S10000x16 .f32) (idx : IVec S32x100000 32) : FVec F S32x100000x16 .f32 :=
  select (broadcastInDim S32x100000x16 ![0, 1] Gen.bcast_S32x100000_S32x100000x16_0_1 (inRange idx)) (rows T idx)
    (broadcastInDim S32x100000x16 ![] Gen.bcast_S_S32x100000x16 (constant S_ .f32 0x7FC00000#32))

/-- The bias laid along the last axis of the result's shape. -/
def biasAll (b : FVec F S16 .f32) : FVec F S32x100000x16 .f32 :=
  broadcastInDim S32x100000x16 ![0, 1, 2] Gen.bcast_S1x1x16_S32x100000x16_0_1_2
    (broadcastInDim S1x1x16 ![2] Gen.bcast_S16_S1x1x16_2 b)

/-- The reference's result as one term of its four argument arrays. -/
def refTerm (idx : IVec S32x100000 32) (X : FVec F S10000x10 .f32) (Kw : FVec F S10x16 .f32) (b : FVec F S16 .f32) :
    FVec F S32x100000x16 .f32 :=
  addf (taken (shrunk X Kw) idx) (biasAll b)

section Line

open Idealize.ShloMosaic.StableHlo Cert.ReferenceIdeal.Gen

/-- The reference's operations in order as its text has them, each call replaced by its callee's operations over that
    call's buffers: the product; the callee's constants, the sign test, the sum with 10000 and (the inner callee's one
    operation) the choice between them; the new axis; the two range tests, their conjunction and its reduction along the
    axis of extent one; the gather; the mask laid along the last axis, the filler, the choice; then the bias laid out in
    two steps and the sum. A callee's operation names each buffer together with the type of the tensor it holds. -/
abbrev opsT : List (HloOp τ sig (Elt F)) :=
  [ binary main_arg1 main_arg2 main_v0 ((fun l r => Host.dotGeneral dot_S10000x10_S10x16_S10000x16_1_0_0_1_n_n none l r) : (⟨S10000x10, .f32⟩ : BufTy).Contents (Elt F) → (⟨S10x16, .f32⟩ : BufTy).Contents (Elt F) → (⟨S10000x16, .f32⟩ : BufTy).Contents (Elt F)),
    TRef.nullary main_call0.c (constantI S_ 32 0#32),
    TRef.unary main_call0.c main_call0.v0 (broadcastInDim S32x100000 ![] bcast_S_S32x100000),
    TRef.binary (.of main_arg0) main_call0.v0 main_call0.v1 (cmpi .slt),
    TRef.nullary main_call0.c_0 (constantI S_ 32 10000#32),
    TRef.unary main_call0.c_0 main_call0.v2 (broadcastInDim S32x100000 ![] bcast_S_S32x100000),
    TRef.binary (.of main_arg0) main_call0.v2 main_call0.v3 addi,
    TRef.ternary main_call0.v1 main_call0.v3 (.of main_arg0) main_call0.call0.v0 select,
    TRef.unary main_call0.call0.v0 main_call0.v5 (broadcastInDim S32x100000x1 ![0, 1] bcast_S32x100000_S32x100000x1_0_1),
    TRef.nullary main_call0.c_1 (constantI S1 32 9999#32),
    TRef.nullary main_call0.c_2 (constantI S_ 32 0#32),
    TRef.unary main_call0.c_2 main_call0.v6 (broadcastInDim S32x100000x1 ![] bcast_S_S32x100000x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x100000x1 ![0, 1, 2] bcast_S1x1x1_S32x100000x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x100000x1_S32x100000_d2 h_S_),
    TRef.binary (.of main_v0) main_call0.v5 main_call0.v13 (fun x i => Host.gather gather_S10000x16_S32x100000x1_S32x100000x16_2_0_n_n_0_2_116 x i),
    TRef.unary main_call0.v12 main_call0.v14 (broadcastInDim S32x100000x16 ![0, 1] bcast_S32x100000_S32x100000x16_0_1),
    TRef.nullary main_call0.cst (constant S_ .f32 0x7FC00000#32),
    TRef.unary main_call0.cst main_call0.v15 (broadcastInDim S32x100000x16 ![] bcast_S_S32x100000x16),
    TRef.ternary main_call0.v14 main_call0.v13 main_call0.v15 main_call0.v16 select,
    unary main_arg3 main_v2 (broadcastInDim S1x1x16 ![2] bcast_S16_S1x1x16_2 : (⟨S16, .f32⟩ : BufTy).Contents (Elt F) → (⟨S1x1x16, .f32⟩ : BufTy).Contents (Elt F)),
    unary main_v2 main_v3 (broadcastInDim S32x100000x16 ![0, 1, 2] bcast_S1x1x16_S32x100000x16_0_1_2 : (⟨S1x1x16, .f32⟩ : BufTy).Contents (Elt F) → (⟨S32x100000x16, .f32⟩ : BufTy).Contents (Elt F)),
    binary main_v1 main_v3 main_v4 (addf : (⟨S32x100000x16, .f32⟩ : BufTy).Contents (Elt F) → (⟨S32x100000x16, .f32⟩ : BufTy).Contents (Elt F) → (⟨S32x100000x16, .f32⟩ : BufTy).Contents (Elt F)) ]

/-- The same operations over the buffers alone: each buffer's type is the type of the tensor its operation holds
    there, so naming the type again adds nothing. -/
abbrev ops : List (HloOp τ sig (Elt F)) :=
  [ binary main_arg1 main_arg2 main_v0 ((fun l r => Host.dotGeneral dot_S10000x10_S10x16_S10000x16_1_0_0_1_n_n none l r) : (⟨S10000x10, .f32⟩ : BufTy).Contents (Elt F) → (⟨S10x16, .f32⟩ : BufTy).Contents (Elt F) → (⟨S10000x16, .f32⟩ : BufTy).Contents (Elt F)),
    nullary main_call0_c (constantI S_ 32 0#32 : (⟨S_, .i32⟩ : BufTy).Contents (Elt F)),
    unary main_call0_c main_call0_v0 (broadcastInDim S32x100000 ![] bcast_S_S32x100000 : (⟨S_, .i32⟩ : BufTy).Contents (Elt F) → (⟨S32x100000, .i32⟩ : BufTy).Contents (Elt F)),
    binary main_arg0 main_call0_v0 main_call0_v1 (cmpi .slt : (⟨S32x100000, .i32⟩ : BufTy).Contents (Elt F) → (⟨S32x100000, .i32⟩ : BufTy).Contents (Elt F) → (⟨S32x100000, .i1⟩ : BufTy).Contents (Elt F)),
    nullary main_call0_c_0 (constantI S_ 32 10000#32 : (⟨S_, .i32⟩ : BufTy).Contents (Elt F)),
    unary main_call0_c_0 main_call0_v2 (broadcastInDim S32x100000 ![] bcast_S_S32x100000 : (⟨S_, .i32⟩ : BufTy).Contents (Elt F) → (⟨S32x100000, .i32⟩ : BufTy).Contents (Elt F)),
    binary main_arg0 main_call0_v2 main_call0_v3 (addi : (⟨S32x100000, .i32⟩ : BufTy).Contents (Elt F) → (⟨S32x100000, .i32⟩ : BufTy).Contents (Elt F) → (⟨S32x100000, .i32⟩ : BufTy).Contents (Elt F)),
    ternary main_call0_v1 main_call0_v3 main_arg0 main_call0_v4 (select : (⟨S32x100000, .i1⟩ : BufTy).Contents (Elt F) → (⟨S32x100000, .i32⟩ : BufTy).Contents (Elt F) → (⟨S32x100000, .i32⟩ : BufTy).Contents (Elt F) → (⟨S32x100000, .i32⟩ : BufTy).Contents (Elt F)),
    unary main_call0_v4 main_call0_v5 (broadcastInDim S32x100000x1 ![0, 1] bcast_S32x100000_S32x100000x1_0_1 : (⟨S32x100000, .i32⟩ : BufTy).Contents (Elt F) → (⟨S32x100000x1, .i32⟩ : BufTy).Contents (Elt F)),
    nullary main_call0_c_1 (constantI S1 32 9999#32 : (⟨S1, .i32⟩ : BufTy).Contents (Elt F)),
    nullary main_call0_c_2 (constantI S_ 32 0#32 : (⟨S_, .i32⟩ : BufTy).Contents (Elt F)),
    unary main_call0_c_2 main_call0_v6 (broadcastInDim S32x100000x1 ![] bcast_S_S32x100000x1 : (⟨S_, .i32⟩ : BufTy).Contents (Elt F) → (⟨S32x100000x1, .i32⟩ : BufTy).Contents (Elt F)),
    binary main_call0_v5 main_call0_v6 main_call0_v7 (cmpi .sge : (⟨S32x100000x1, .i32⟩ : BufTy).Contents (Elt F) → (⟨S32x100000x1, .i32⟩ : BufTy).Contents (Elt F) → (⟨S32x100000x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S32x100000x1 ![0, 1, 2] bcast_S1x1x1_S32x100000x1_0_1_2 : (⟨S1x1x1, .i32⟩ : BufTy).Contents (Elt F) → (⟨S32x100000x1, .i32⟩ : BufTy).Contents (Elt F)),
    binary main_call0_v5 main_call0_v9 main_call0_v10 (cmpi .sle : (⟨S32x100000x1, .i32⟩ : BufTy).Contents (Elt F) → (⟨S32x100000x1, .i32⟩ : BufTy).Contents (Elt F) → (⟨S32x100000x1, .i1⟩ : BufTy).Contents (Elt F)),
    binary main_call0_v7 main_call0_v10 main_call0_v11 (andi : (⟨S32x100000x1, .i1⟩ : BufTy).Contents (Elt F) → (⟨S32x100000x1, .i1⟩ : BufTy).Contents (Elt F) → (⟨S32x100000x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S32x100000x1_S32x100000_d2 h_S_) : (⟨S32x100000x1, .i1⟩ : BufTy).Contents (Elt F) → (⟨S_, .i1⟩ : BufTy).Contents (Elt F) → (⟨S32x100000, .i1⟩ : BufTy).Contents (Elt F)),
    binary main_v0 main_call0_v5 main_call0_v13 ((fun x i => Host.gather gather_S10000x16_S32x100000x1_S32x100000x16_2_0_n_n_0_2_116 x i) : (⟨S10000x16, .f32⟩ : BufTy).Contents (Elt F) → (⟨S32x100000x1, .i32⟩ : BufTy).Contents (Elt F) → (⟨S32x100000x16, .f32⟩ : BufTy).Contents (Elt F)),
    unary main_call0_v12 main_call0_v14 (broadcastInDim S32x100000x16 ![0, 1] bcast_S32x100000_S32x100000x16_0_1 : (⟨S32x100000, .i1⟩ : BufTy).Contents (Elt F) → (⟨S32x100000x16, .i1⟩ : BufTy).Contents (Elt F)),
    nullary main_call0_cst (constant S_ .f32 0x7FC00000#32 : (⟨S_, .f32⟩ : BufTy).Contents (Elt F)),
    unary main_call0_cst main_call0_v15 (broadcastInDim S32x100000x16 ![] bcast_S_S32x100000x16 : (⟨S_, .f32⟩ : BufTy).Contents (Elt F) → (⟨S32x100000x16, .f32⟩ : BufTy).Contents (Elt F)),
    ternary main_call0_v14 main_call0_v13 main_call0_v15 main_v1 (select : (⟨S32x100000x16, .i1⟩ : BufTy).Contents (Elt F) → (⟨S32x100000x16, .f32⟩ : BufTy).Contents (Elt F) → (⟨S32x100000x16, .f32⟩ : BufTy).Contents (Elt F) → (⟨S32x100000x16, .f32⟩ : BufTy).Contents (Elt F)),
    unary main_arg3 main_v2 (broadcastInDim S1x1x16 ![2] bcast_S16_S1x1x16_2 : (⟨S16, .f32⟩ : BufTy).Contents (Elt F) → (⟨S1x1x16, .f32⟩ : BufTy).Contents (Elt F)),
    unary main_v2 main_v3 (broadcastInDim S32x100000x16 ![0, 1, 2] bcast_S1x1x16_S32x100000x16_0_1_2 : (⟨S1x1x16, .f32⟩ : BufTy).Contents (Elt F) → (⟨S32x100000x16, .f32⟩ : BufTy).Contents (Elt F)),
    binary main_v1 main_v3 main_v4 (addf : (⟨S32x100000x16, .f32⟩ : BufTy).Contents (Elt F) → (⟨S32x100000x16, .f32⟩ : BufTy).Contents (Elt F) → (⟨S32x100000x16, .f32⟩ : BufTy).Contents (Elt F)) ]

/-- The reference is the straight line of the operations as its text has them: with the two callees' bodies put at
    their calls and the sequencing re-associated, both sides are the same chain of steps. -/
theorem main_eqT (c : Dev nD) : main (F := F) c = seq opsT := by
  simp only [main, fn_take.body, fn_where.body, seq, bind_assoc, pure_bind]

attribute [local irreducible] Host.reduce Host.gather in
/-- The two lists are one list: operation by operation, moving a value between a buffer and the tensor type the buffer
    has is the identity. -/
theorem opsT_eq : (opsT : List (HloOp τ sig (Elt F))) = ops := rfl

/-- The reference is the straight line of the operations over the buffers alone. -/
theorem main_eq (c : Dev nD) : main (F := F) c = seq ops := (main_eqT c).trans (congrArg seq opsT_eq)

attribute [local irreducible] Host.reduce Host.gather in
/-- What the line leaves in the result buffer is `refTerm` of what the argument buffers held: each operation's value
    is read at its own buffer and passed on to the operations that read it, and no operation writes an argument. -/
theorem out_eq (V : Valuation τ sig (Elt F)) :
    after ops V (main_v4 : DevRef τ sig)
      = refTerm (V (main_arg0 : DevRef τ sig)) (V (main_arg1 : DevRef τ sig)) (V (main_arg2 : DevRef τ sig))
          (V (main_arg3 : DevRef τ sig)) := by
  after_results_simp
  simp only [refTerm, taken, rows, inRange, starts, wrapped, shrunk, biasAll]

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem arg3_eq (V : Valuation τ sig (Elt F)) :
    after ops V (main_arg3 : DevRef τ sig) = V (main_arg3 : DevRef τ sig) := by
  after_results

/-- The signature scopes no buffer and no semaphore: the program has tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's one tensor core only. -/
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

end Line

variable (m : (ℓ : Loc nD τ sig) → Buf (Elt F) ℓ) (ρ : Dev nD → PrngReg)

/-- Every weakly fair execution of the reference terminates with the result array at `refTerm` of the arguments and
    the arguments unchanged. -/
theorem run : θ_run (defs (F := F)) (onTc (τ := τ) (main (F := F))) ⟨m, fun _ => 0, ρ⟩ (fun r => ∀ c : Dev nD,
      r.2.mem ((c.tc : Thread nD τ).loc main_v4)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v4).trans (out_eq _), (h c main_arg0).trans (arg0_eq _),
      (h c main_arg1).trans (arg1_eq _), (h c main_arg2).trans (arg2_eq _), (h c main_arg3).trans (arg3_eq _)⟩)
    (StableHlo.run_seq scopedRefs_eq scopedSems_eq defs main (fun _ => ops) main_eq (fun _ => ops_sub) m ρ)

end Cert.ReferenceIdeal.RefValue

end
-- ==== Proof.LibGatherRows3.lean ====
/-
  A gather of whole rows of a table, read at an index.

  A table of shape [N, C] is gathered at an array of start indices [A, B, 1]: offset axis 2, collapsed slice axis 0,
  start index map [0], index vector axis 2, slice sizes [1, C]. The result has shape [A, B, C], and its element
  (a, p, c) is the table's element in column c of the row that start index (a, p, 0) names, the start index read as a
  signed integer and kept inside [0, N - 1]. For a start index that is a small natural number already inside the table
  the row is the index's own value; and the usual wrap of a negative index by the table's height, a select between
  the index plus N and the index on the index's sign, leaves such an index as it is.
-/
import Idealize.ShloMosaic.Lib.ValueIdx
import Idealize.ShloMosaic.Lib.StableHlo.Predicate

noncomputable section

namespace Cert.Lib.GatherRows3

open Idealize.ShloMosaic Idealize.ShloMosaic.ValueIdx

variable {α : Type}

/-- The dimension numbers of a gather of whole rows: operand [N, C], start indices [A, B, 1], result [A, B, C]. -/
abbrev rowsDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows read at (a, p, c): the table at column c of the row the start index (a, p, 0) names, read
    signed and kept inside [0, N - 1]. -/
theorem gather_rows_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (p : Fin B) (c : Fin C) :
    Host.gather (rowsDims N A B C wf) x idx (ix3 a p c)
      = x (ix2 (⟨min (idx (ix3 a p (0 : Fin 1))).toInt.toNat (N - 1), by omega⟩ : Fin N) c) := by
  unfold Host.gather
  congr 1
  funext e
  refine Fin.ext ?_
  match e with
  | ⟨0, _⟩ =>
    show (rowsDims N A B C wf).start (ix3 a p c) idx 0 + (rowsDims N A B C wf).batchCoord (ix3 a p c) 0
      + (rowsDims N A B C wf).offCoord (ix3 a p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N A B C wf).startIndexMap from List.mem_singleton.mpr rfl)]
    have hsi : (rowsDims N A B C wf).siIdx (ix3 a p c) ⟨List.idxOf (0 : Fin 2) (rowsDims N A B C wf).startIndexMap,
        List.idxOf_lt_length_iff.2 (List.mem_singleton.mpr rfl)⟩ = ix3 a p (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N A B C wf).start (ix3 a p c) idx 1 + (rowsDims N A B C wf).batchCoord (ix3 a p c) 1
      + (rowsDims N A B C wf).offCoord (ix3 a p c) 1 = c.val
    rw [GatherDims.batchCoord_eq_zero _ _ _ List.not_mem_nil]
    unfold GatherDims.start
    rw [dif_neg (show (1 : Fin 2) ∉ (rowsDims N A B C wf).startIndexMap from
      fun h => absurd (List.mem_singleton.mp h) (by decide : ¬ ((1 : Fin 2) = 0)))]
    simp only [Nat.zero_add, Nat.add_zero]
    rfl

/-- A word below 2^31 is not negative, so the wrap by the table's height (the word plus n where the word is negative,
    else the word) leaves it as it is. -/
theorem wrap_eq (t n : BitVec 32) (ht : t.toNat < 2 ^ 31) :
    Scalar.select (IntOp.cmpi .slt t 0#32) (IntOp.addi t n) t = t := by
  unfold Scalar.select
  refine if_neg fun h => ?_
  exact Nat.not_lt_zero _ ((StableHlo.Predicate.slt_iff_toNat ht (by decide)).mp h)

/-- A word that names a row of a table of N rows, N below 2^31, read signed and kept inside [0, N - 1], is its own
    value. -/
theorem clamp_eq (t : BitVec 32) (N : Nat) (hN : N ≤ 2 ^ 31) (ht : t.toNat < N) :
    min t.toInt.toNat (N - 1) = t.toNat := by
  rw [StableHlo.Predicate.toInt_eq_toNat_of_lt (by omega), Int.toNat_natCast]
  omega

end Cert.Lib.GatherRows3

end
-- ==== Proof.RefRead.lean ====
/-
  The reference's result, read at an index: for index words that name rows of the table it is the table's entry plus
  the bias.

  Stage by stage at an index (a, p, f) of the result. A word below 10000 is not negative, so the move of negative
  words leaves it as it is; the start index of the gather at (a, p) is then the index word itself. Such a word lies in
  [0, 9999], so both range tests hold, their conjunction is one, and so is its reduction along the axis of extent one:
  the choice takes the gathered entry everywhere and the filler is never read. The gather reads the table in the row
  the word names (the clamp to [0, 9999] does nothing to such a word) and column f. The table's entry is the sum over
  the ten bases of the products, the one contracted axis re-indexed by its coordinate. The bias laid out in two steps
  is, at (a, p, f), the bias of column f.
-/
import proofs.«409968_j12807592476724_2_alg».proof.Proof.RefRun
import proofs.«409968_j12807592476724_2_alg».proof.Proof.Spec
import proofs.«409968_j12807592476724_2_alg».proof.Proof.LibGatherRows3
import proofs.«409968_j12807592476724_2_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx
open Cert.ReferenceIdeal

/-- A conjunction folded over any list of ones, from one, is one. -/
theorem foldl_andi_ones {ι : Type} (x : ι → BitVec 1) (hx : ∀ i, x i = 1#1) :
    ∀ l : List ι, l.foldl (fun r i => IntOp.andi r (x i)) 1#1 = 1#1
  | [] => rfl
  | i :: l => by
    rw [List.foldl_cons, hx i, show IntOp.andi 1#1 1#1 = 1#1 from by decide]
    exact foldl_andi_ones x hx l

/-- A reduction by conjunction of an array of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-- A word below 10000 is not moved. -/
theorem wrapped_apply (idx : IVec S32x100000 32) (i : S32x100000.Idx) (h : (idx i).toNat < 10000) :
    wrapped idx i = idx i := by
  show Scalar.select (IntOp.cmpi .slt (idx i) 0#32) (IntOp.addi (idx i) 10000#32) (idx i) = idx i
  exact Cert.Lib.GatherRows3.wrap_eq _ _ (by omega)

/-- The start index at (a, p, k) is the moved index word at (a, p). -/
theorem starts_apply (idx : IVec S32x100000 32) (i : S32x100000x1.Idx) :
    starts idx i = wrapped idx (ix2 (i 0) (i 1)) := by
  unfold starts
  exact broadcastInDim_apply _ _ _ i (ix2 (i 0) (i 1)) (fun a => match a with | ⟨0, _⟩ => rfl | ⟨1, _⟩ => rfl)

/-- With every index word below 10000 the range test holds everywhere. -/
theorem inRange_apply (idx : IVec S32x100000 32) (hidx : ∀ i, (idx i).toNat < 10000) (j : S32x100000.Idx) :
    inRange idx j = 1#1 := by
  unfold inRange
  refine reduce_andi_ones _ _ _ _ (fun i => ?_) rfl j
  have hs : starts idx i = idx (ix2 (i 0) (i 1)) := (starts_apply idx i).trans (wrapped_apply idx _ (hidx _))
  have hlt := hidx (ix2 (i 0) (i 1))
  show IntOp.andi (IntOp.cmpi .sge (starts idx i) 0#32) (IntOp.cmpi .sle (starts idx i) 9999#32) = 1#1
  rw [hs]
  exact IntOp.andi_eq_one.mpr
    ⟨(StableHlo.Predicate.sge_iff_toNat (by omega) (by decide)).mpr (Nat.zero_le _),
      (StableHlo.Predicate.sle_iff_toNat (by omega) (by decide)).mpr (by show _ ≤ 9999; omega)⟩

/-- The gathered entry at (a, p, f) is the table's entry in the row the index word names and column f. -/
theorem rows_apply {F : FTy → Type} [FloatOps F] (T : FVec F S10000x16 .f32) (idx : IVec S32x100000 32)
    (hidx : ∀ i, (idx i).toNat < 10000) (a : Fin 32) (p : Fin 100000) (f : Fin 16) :
    rows T idx (ix3 a p f) = T (ix2 (Cert.Spec.rowOf (idx (ix2 a p))) f) := by
  unfold rows
  have hs : starts idx (ix3 a p (0 : Fin 1)) = idx (ix2 a p) :=
    (starts_apply idx _).trans (wrapped_apply idx _ (hidx _))
  refine (Cert.Lib.GatherRows3.gather_rows_apply (by decide) Gen.gather_S10000x16_S32x100000x1_S32x100000x16_2_0_n_n_0_2_116_wf
    T (starts idx) a p f).trans ?_
  refine congrArg T (congrArg (fun n => ix2 n f) (Fin.ext ?_))
  show min (starts idx (ix3 a p (0 : Fin 1))).toInt.toNat (10000 - 1) = (Cert.Spec.rowOf (idx (ix2 a p))).val
  rw [hs, Cert.Lib.GatherRows3.clamp_eq _ 10000 (by decide) (hidx _), Cert.Spec.rowOf_val _ (hidx _)]

/-- With every index word below 10000 the filler is never taken. -/
theorem taken_apply {F : FTy → Type} [FloatOps F] (T : FVec F S10000x16 .f32) (idx : IVec S32x100000 32)
    (hidx : ∀ i, (idx i).toNat < 10000) (a : Fin 32) (p : Fin 100000) (f : Fin 16) :
    taken T idx (ix3 a p f) = T (ix2 (Cert.Spec.rowOf (idx (ix2 a p))) f) := by
  unfold taken
  rw [select_apply]
  unfold broadcastInDim
  rw [inRange_apply idx hidx, select_one]
  exact rows_apply T idx hidx a p f

/-- The bias laid out, at (a, p, f), is the bias of column f. -/
theorem biasAll_apply {F : FTy → Type} [FloatOps F] (b : FVec F S16 .f32) (a : Fin 32) (p : Fin 100000) (f : Fin 16) :
    biasAll b (ix3 a p f) = b (ix1 f) := by
  unfold biasAll
  refine (broadcastInDim_apply _ _ _ (ix3 a p f) (ix3 (0 : Fin 1) (0 : Fin 1) f)
    (fun c => match c with | ⟨0, _⟩ => rfl | ⟨1, _⟩ => rfl | ⟨2, _⟩ => rfl)).trans ?_
  exact broadcastInDim_apply _ _ _ (ix3 (0 : Fin 1) (0 : Fin 1) f) (ix1 f) (fun c => match c with | ⟨0, _⟩ => rfl)

/-- The product at (n, f) is the sum over the ten bases. -/
theorem shrunk_apply (X : FVec Ideal S10000x10 .f32) (Kw : FVec Ideal S10x16 .f32) (n : Fin 10000) (f : Fin 16) :
    shrunk (F := Ideal) X Kw (ix2 n f) = ∑ k : Fin 10, X (ix2 n k) * Kw (ix2 k f) := by
  unfold shrunk
  simp only [Host.dotGeneral]
  rw [Ideal.dotGeneral_apply]
  have hr := Cert.Lib.MatmulPlain.contr_rank dot_S10000x10_S10x16_S10000x16_1_0_0_1_n_n rfl
  have hz := Cert.Lib.MatmulPlain.contr_size dot_S10000x10_S10x16_S10000x16_1_0_0_1_n_n rfl
  rw [← Equiv.sum_comp (contrEquiv1 dot_S10000x10_S10x16_S10000x16_1_0_0_1_n_n 10 hr hz).symm]
  refine Finset.sum_congr rfl fun k _ => ?_
  have hk := contrEquiv1_symm_val dot_S10000x10_S10x16_S10000x16_1_0_0_1_n_n 10 hr hz k
  have el : dot_S10000x10_S10x16_S10000x16_1_0_0_1_n_n.lhsIdx (ix2 n f)
      ((contrEquiv1 dot_S10000x10_S10x16_S10000x16_1_0_0_1_n_n 10 hr hz).symm k) = ix2 n k := by
    funext a; apply Fin.ext
    match a with
    | ⟨0, _⟩ => exact Cert.Lib.MatmulPlain.lhs_0 _ rfl rfl _ _
    | ⟨1, _⟩ => exact (Cert.Lib.MatmulPlain.lhs_1 _ rfl _ _).trans hk
  have er : dot_S10000x10_S10x16_S10000x16_1_0_0_1_n_n.rhsIdx (ix2 n f)
      ((contrEquiv1 dot_S10000x10_S10x16_S10000x16_1_0_0_1_n_n 10 hr hz).symm k) = ix2 k f := by
    funext a; apply Fin.ext
    match a with
    | ⟨0, _⟩ => exact (Cert.Lib.MatmulPlain.rhs_0 _ rfl rfl _ _).trans hk
    | ⟨1, _⟩ => exact Cert.Lib.MatmulPlain.rhs_1 _ rfl rfl rfl rfl _ _
  rw [el, er]

/-- With every index word a row number, the reference's term is the specification. -/
theorem refTerm_eq_G (idx : IVec S32x100000 32) (X : FVec Ideal S10000x10 .f32) (Kw : FVec Ideal S10x16 .f32)
    (b : FVec Ideal S16 .f32) (hidx : ∀ i, (idx i).toNat < 10000) :
    refTerm (F := Ideal) idx X Kw b = Cert.Spec.G idx X Kw b := by
  funext j
  obtain ⟨a, p, f, rfl⟩ : ∃ (a : Fin 32) (p : Fin 100000) (f : Fin 16), j = ix3 a p f := ⟨j 0, j 1, j 2, eq_ix3 j⟩
  unfold refTerm
  rw [addf_apply, taken_apply _ idx hidx, biasAll_apply, shrunk_apply, Cert.Spec.G_apply, Cert.Spec.table_apply]

end Cert.ReferenceIdeal.RefValue

end
-- ==== Proof.lean ====
/-
  The kernel against its reference.

  Both programs compute, for every index word idx (a, p) and column f, the entry (idx (a, p), f) of the table
  X · K plus the bias of column f (Proof/Spec.lean). The reference forms the table by one matrix product and reads
  its rows by a gather (Proof/RefRun.lean, Proof/RefRead.lean). The kernel forms the table in a first region, clamps
  and flattens the index array, and in a second region selects the rows block by block: for each chunk of 400 rows it
  multiplies the indicators [idx = row] with the chunk, once with the chunk itself and once with the chunk minus
  itself; on the extended reals the first product is the selected row and the second is zero because the table's
  entries are real numbers (Proof/GatherSteps.lean, Proof/GatherBody.lean, Proof/KRegion0.lean, Proof/KRegion1.lean,
  Proof/KGlue.lean, Proof/KValue.lean). The precondition supplies what this needs: the two float factors of the table
  hold real numbers and every index word is a row number, where the clamp is the identity and the reference's wrap of
  negative indices and its out-of-range mask do nothing (Proof/PreDecode.lean).

  The three frames: the two kernel programs' are their frame certificates; the reference's is its run with the result
  dropped. The kernel's idealization removed 25 round trips f32 → bf16 → f32 of a table chunk: each is the identity at
  the ideal instance.
-/
import proofs.«409968_j12807592476724_2_alg».proof.Defs
import proofs.«409968_j12807592476724_2_alg».proof.Proof.Gen.Kernel
import proofs.«409968_j12807592476724_2_alg».proof.Proof.Gen.Kernel.Skeleton
import proofs.«409968_j12807592476724_2_alg».proof.Proof.Gen.Kernel.Launch
import proofs.«409968_j12807592476724_2_alg».proof.Proof.Gen.Kernel.Points
import proofs.«409968_j12807592476724_2_alg».proof.Proof.Gen.Kernel.Frame
import proofs.«409968_j12807592476724_2_alg».proof.Proof.Gen.KernelIdeal
import proofs.«409968_j12807592476724_2_alg».proof.Proof.Gen.KernelIdeal.Skeleton
import proofs.«409968_j12807592476724_2_alg».proof.Proof.Gen.KernelIdeal.Launch
import proofs.«409968_j12807592476724_2_alg».proof.Proof.Gen.KernelIdeal.Points
import proofs.«409968_j12807592476724_2_alg».proof.Proof.Gen.KernelIdeal.Frame
import proofs.«409968_j12807592476724_2_alg».proof.Proof.Gen.ReferenceIdeal
import proofs.«409968_j12807592476724_2_alg».proof.Proof.Gen.Pre_finite_inputs
import proofs.«409968_j12807592476724_2_alg».proof.Proof.Spec
import proofs.«409968_j12807592476724_2_alg».proof.Proof.PreDecode
import proofs.«409968_j12807592476724_2_alg».proof.Proof.KValue
import proofs.«409968_j12807592476724_2_alg».proof.Proof.RefRun
import proofs.«409968_j12807592476724_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Each of the 25 removed round trips through bf16 is the identity at the ideal instance. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

/-- Both runs end with the result array at the specification of the (agreeing) arguments. -/
theorem algebraic : Cert.algebraic_KernelIdeal_ReferenceIdeal := by
  intro m ρ m' ρ' hpre hagree
  have hp := fun c => Cert.PreDecode.of_pre _ _ _ _ (hpre c)
  refine ⟨fun c => Cert.Spec.G (Cert.KernelIdeal.KV.idxA m c) (Cert.KernelIdeal.KV.xA m c) (Cert.KernelIdeal.KV.kA m c)
      (Cert.KernelIdeal.KV.bA m c),
    Cert.KernelIdeal.KV.run m ρ (fun c => (hp c).1) (fun c => (hp c).2.1) (fun c => (hp c).2.2), ?_⟩
  refine (θ_run Cert.ReferenceIdeal.defs _ _).mono (fun _ h c => ⟨?_, (h c).2⟩)
    (Cert.ReferenceIdeal.RefValue.run (F := Ideal) m' ρ')
  rw [(h c).1, (hagree c).1, (hagree c).2.1, (hagree c).2.2.1, (hagree c).2.2.2]
  exact Cert.ReferenceIdeal.RefValue.refTerm_eq_G _ _ _ _ (hp c).1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
